-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : IVec S2x800000 32) (main_arg2 : FVec F S256x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S4000x256 : Shape := ⟨2, ![4000, 256]⟩
abbrev S900000x256 : Shape := ⟨2, ![900000, 256]⟩
abbrev S1x256 : Shape := ⟨2, ![1, 256]⟩
abbrev S1x64 : Shape := ⟨2, ![1, 64]⟩
abbrev S100000x64 : Shape := ⟨2, ![100000, 64]⟩
abbrev S4000x64 : Shape := ⟨2, ![4000, 64]⟩
abbrev S4000 : Shape := ⟨1, ![4000]⟩
abbrev S4000x1 : Shape := ⟨2, ![4000, 1]⟩

abbrev nBuf : Space → Nat
  | .hbm => 81
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S900000, .i32⟩
  | .hbm, ⟨24, _⟩ => ⟨S900000, .i1⟩
  | .hbm, ⟨25, _⟩ => ⟨S_, .i32⟩
  | .hbm, ⟨26, _⟩ => ⟨S900000, .i32⟩
  | .hbm, ⟨27, _⟩ => ⟨S900000, .i32⟩
  | .hbm, ⟨28, _⟩ => ⟨S900000, .i32⟩
  | .hbm, ⟨29, _⟩ => ⟨S900000x1, .i32⟩
  | .hbm, ⟨30, _⟩ => ⟨S900000, .f32⟩
  | .hbm, ⟨31, _⟩ => ⟨S_, .i32⟩
  | .hbm, ⟨32, _⟩ => ⟨S900000, .i32⟩
  | .hbm, ⟨33, _⟩ => ⟨S900000, .i1⟩
  | .hbm, ⟨34, _⟩ => ⟨S_, .i32⟩
  | .hbm, ⟨35, _⟩ => ⟨S900000, .i32⟩
  | .hbm, ⟨36, _⟩ => ⟨S900000, .i32⟩
  | .hbm, ⟨37, _⟩ => ⟨S900000, .i32⟩
  | .hbm, ⟨38, _⟩ => ⟨S900000x1, .i32⟩
  | .hbm, ⟨39, _⟩ => ⟨S900000, .f32⟩
  | .hbm, ⟨40, _⟩ => ⟨S900000, .f32⟩
  | .hbm, ⟨41, _⟩ => ⟨S100000x256, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x256, .f32⟩
  | .hbm, ⟨51, _⟩ => ⟨S900000x1, .f32⟩
  | .hbm, ⟨52, _⟩ => ⟨S900000x256, .f32⟩
  | .hbm, ⟨53, _⟩ => ⟨S900000x256, .f32⟩
  | .hbm, ⟨54, _⟩ => ⟨S_, .f32⟩
  | .hbm, ⟨55, _⟩ => ⟨S100000x256, .f32⟩
  | .hbm, ⟨56, _⟩ => ⟨S900000x1, .i32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .i32⟩
  | .hbm, ⟨62, _⟩ => ⟨S900000, .i32⟩
  | .hbm, ⟨63, _⟩ => ⟨S900000, .i1⟩
  | .hbm, ⟨64, _⟩ => ⟨S_, .i32⟩
  | .hbm, ⟨65, _⟩ => ⟨S900000, .i32⟩
  | .hbm, ⟨66, _⟩ => ⟨S900000, .i32⟩
  | .hbm, ⟨67, _⟩ => ⟨S900000, .i32⟩
  | .hbm, ⟨68, _⟩ => ⟨S900000x1, .i32⟩
  | .hbm, ⟨69, _⟩ => ⟨S900000x256, .f32⟩
  | .hbm, ⟨70, _⟩ => ⟨S900000x1, .f32⟩
  | .hbm, ⟨71, _⟩ => ⟨S900000x256, .f32⟩
  | .hbm, ⟨72, _⟩ => ⟨S900000x256, .f32⟩
  | .hbm, ⟨73, _⟩ => ⟨S_, .f32⟩
  | .hbm, ⟨74, _⟩ => ⟨S100000x256, .f32⟩
  | .hbm, ⟨75, _⟩ => ⟨S900000x1, .i32⟩
  | .hbm, ⟨76, _⟩ => ⟨S100000x256, .f32⟩
  | .hbm, ⟨77, _⟩ => ⟨S1x256, .f32⟩
  | .hbm, ⟨78, _⟩ => ⟨S100000x256, .f32⟩
  | .hbm, ⟨79, _⟩ => ⟨S1x64, .f32⟩
  | .hbm, ⟨80, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S1x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S1x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S256x64, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  shapeCasts_S256_S1x256 : S256.ShapeCasts S1x256
  shapeCasts_S4000x256_S4000x256 : S4000x256.ShapeCasts S4000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S4000x256_S256x256_S4000x256_1_0_0_1_n_n_wf : DotDims.WF S4000x256 S256x256 S4000x256 [1] [0] [0] [1] [] []
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S4000x256_S256x64_S4000x64_1_0_0_1_n_n_wf : DotDims.WF S4000x256 S256x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .f32 = 32 ∨ (Rect.block (s := S100000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S100000x256.size a
  hwx1_2 : ∀ i : grid1.Coords, EltTy.bits .f32 = 32 ∨ (Rect.block (s := S100000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S100000x256.size a
  hwx2_2 : ∀ i : grid2.Coords, EltTy.bits .f32 = 32 ∨ (Rect.block (s := S100000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S100000x256.size a
  hwx3_0 : ∀ i : grid3.Coords, EltTy.bits .f32 = 32 ∨ (Rect.block (s := S100000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S100000x256.size a
  hwx3_2 : ∀ i : grid3.Coords, EltTy.bits .f32 = 32 ∨ (Rect.block (s := S100000x256) S4000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S100000x256.size a
  hwx4_0 : ∀ i : grid4.Coords, EltTy.bits .f32 = 32 ∨ (Rect.block (s := S100000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .f32 = 32 ∨ (Rect.block (s := S256x64) S256x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S4000x256_S256x64_S4000x64_1_0_0_1_n_n : DotDims S4000x256 S256x64 S4000x64 where
  lhsContracting := [1]
  rhsContracting := [0]
  lhsNonContracting := [0]
  rhsNonContracting := [1]
  lhsBatch := []
  rhsBatch := []
  wf := dot_S4000x256_S256x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S4000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x256 : Shape := ⟨2, ![900000, 256]⟩
abbrev S1x256 : Shape := ⟨2, ![1, 256]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S100000, .f32⟩
  | .hbm, ⟨22, _⟩ => ⟨S100000x256, .f32⟩
  | .hbm, ⟨23, _⟩ => ⟨S_, .i32⟩
  | .hbm, ⟨24, _⟩ => ⟨S900000, .i32⟩
  | .hbm, ⟨25, _⟩ => ⟨S900000, .i1⟩
  | .hbm, ⟨26, _⟩ => ⟨S_, .i32⟩
  | .hbm, ⟨27, _⟩ => ⟨S900000, .i32⟩
  | .hbm, ⟨28, _⟩ => ⟨S900000, .i32⟩
  | .hbm, ⟨29, _⟩ => ⟨S900000, .i32⟩
  | .hbm, ⟨30, _⟩ => ⟨S900000x1, .i32⟩
  | .hbm, ⟨31, _⟩ => ⟨S900000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000x256, .f32⟩
  | .hbm, ⟨51, _⟩ => ⟨S900000x1, .f32⟩
  | .hbm, ⟨52, _⟩ => ⟨S900000x256, .f32⟩
  | .hbm, ⟨53, _⟩ => ⟨S900000x256, .f32⟩
  | .hbm, ⟨54, _⟩ => ⟨S_, .f32⟩
  | .hbm, ⟨55, _⟩ => ⟨S100000x256, .f32⟩
  | .hbm, ⟨56, _⟩ => ⟨S900000x1, .i32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S_, .i32⟩
  | .hbm, ⟨66, _⟩ => ⟨S900000, .i32⟩
  | .hbm, ⟨67, _⟩ => ⟨S900000, .i1⟩
  | .hbm, ⟨68, _⟩ => ⟨S_, .i32⟩
  | .hbm, ⟨69, _⟩ => ⟨S900000, .i32⟩
  | .hbm, ⟨70, _⟩ => ⟨S900000, .i32⟩
  | .hbm, ⟨71, _⟩ => ⟨S900000, .i32⟩
  | .hbm, ⟨72, _⟩ => ⟨S900000x1, .i32⟩
  | .hbm, ⟨73, _⟩ => ⟨S900000, .f32⟩
  | .hbm, ⟨74, _⟩ => ⟨S_, .i32⟩
  | .hbm, ⟨75, _⟩ => ⟨S900000, .i32⟩
  | .hbm, ⟨76, _⟩ => ⟨S900000, .i1⟩
  | .hbm, ⟨77, _⟩ => ⟨S_, .i32⟩
  | .hbm, ⟨78, _⟩ => ⟨S900000, .i32⟩
  | .hbm, ⟨79, _⟩ => ⟨S900000, .i32⟩
  | .hbm, ⟨80, _⟩ => ⟨S900000, .i32⟩
  | .hbm, ⟨81, _⟩ => ⟨S900000x1, .i32⟩
  | .hbm, ⟨82, _⟩ => ⟨S900000, .f32⟩
  | .hbm, ⟨83, _⟩ => ⟨S900000, .f32⟩
  | .hbm, ⟨84, _⟩ => ⟨S_, .i32⟩
  | .hbm, ⟨85, _⟩ => ⟨S900000, .i32⟩
  | .hbm, ⟨86, _⟩ => ⟨S900000, .i1⟩
  | .hbm, ⟨87, _⟩ => ⟨S_, .i32⟩
  | .hbm, ⟨88, _⟩ => ⟨S900000, .i32⟩
  | .hbm, ⟨89, _⟩ => ⟨S900000, .i32⟩
  | .hbm, ⟨90, _⟩ => ⟨S900000, .i32⟩
  | .hbm, ⟨91, _⟩ => ⟨S900000x1, .i32⟩
  | .hbm, ⟨92, _⟩ => ⟨S900000x256, .f32⟩
  | .hbm, ⟨93, _⟩ => ⟨S900000x1, .f32⟩
  | .hbm, ⟨94, _⟩ => ⟨S900000x256, .f32⟩
  | .hbm, ⟨95, _⟩ => ⟨S900000x256, .f32⟩
  | .hbm, ⟨96, _⟩ => ⟨S_, .f32⟩
  | .hbm, ⟨97, _⟩ => ⟨S100000x256, .f32⟩
  | .hbm, ⟨98, _⟩ => ⟨S900000x1, .i32⟩
  | .hbm, ⟨99, _⟩ => ⟨S100000x256, .f32⟩
  | .hbm, ⟨100, _⟩ => ⟨S1x256, .f32⟩
  | .hbm, ⟨101, _⟩ => ⟨S100000x256, .f32⟩
  | .hbm, ⟨102, _⟩ => ⟨S100000x256, .f32⟩
  | .hbm, ⟨103, _⟩ => ⟨S_, .f32⟩
  | .hbm, ⟨104, _⟩ => ⟨S100000x256, .f32⟩
  | .hbm, ⟨105, _⟩ => ⟨S100000x256, .f32⟩
  | .hbm, ⟨106, _⟩ => ⟨S100000x64, .f32⟩
  | .hbm, ⟨107, _⟩ => ⟨S1x64, .f32⟩
  | .hbm, ⟨108, _⟩ => ⟨S100000x64, .f32⟩
  | .hbm, ⟨109, _⟩ => ⟨S100000x64, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x64, .f32⟩
  | .hbm, ⟨124, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v82 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x256_0_1 : S900000x1.BroadcastsInDim S900000x256 (![0, 1] : Fin 2 → Fin S900000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S900000x1_S900000_n_0_0_1_wf : ScatterDims.WF S100000 S900000x1 S900000 [] [0] [0] 1
  dot_S100000x256_S256x256_S100000x256_1_0_0_1_n_n_wf : DotDims.WF S100000x256 S256x256 S100000x256 [1] [0] [0] [1] [] []
  gather_S100000_S900000x1_S900000_n_0_n_n_0_1_1_wf : GatherDims.WF S100000 S900000x1 S900000 [] [0] [] [0] [] 1 ![1]
  gather_S100000x256_S900000x1_S900000x256_1_0_n_n_0_1_1256_wf : GatherDims.WF S100000x256 S900000x1 S900000x256 [1] [0] [] [0] [] 1 ![1, 256]
  scatter_S100000x256_S900000x1_S900000x256_1_0_0_1_wf : ScatterDims.WF S100000x256 S900000x1 S900000x256 [1] [0] [0] 1
  dot_S100000x256_S256x64_S100000x64_1_0_0_1_n_n_wf : DotDims.WF S100000x256 S256x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x256_S900000x1_S900000x256_1_0_n_n_0_1_1256 : GatherDims S100000x256 S900000x1 S900000x256 where
  offsetDims := [1]
  collapsedSliceDims := [0]
  operandBatchingDims := []
  startIndicesBatchingDims := []
  startIndexMap := [0]
  indexVectorDim := 1
  sliceSizes := ![1, 256]
  wf := gather_S100000x256_S900000x1_S900000x256_1_0_n_n_0_1_1256_wf
def scatter_S100000x256_S900000x1_S900000x256_1_0_0_1 : ScatterDims S100000x256 S900000x1 S900000x256 where
  updateWindowDims := [1]
  insertedWindowDims := [0]
  scatterDimsToOperandDims := [0]
  indexVectorDim := 1
  wf := scatter_S100000x256_S900000x1_S900000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.Spec.lean ====
/-
  The network's three dense stages as plain functions of whole arrays over the extended reals, index by index.
  A graph-convolution layer is "aggregate over edges, then add a bias and clip at zero"; between the two the features
  are multiplied by a weight matrix; the last stage multiplies by the output weights, adds a bias and takes the
  logarithm of the softmax along each row. Nothing here mentions a program: both the tiled kernels and the jnp
  reference are shown to compute these functions.

  * `rowsTimes256 x w`, `rowsTimes64 x w` : the matrix product (x·w)[r, c] = Σ_k x[r, k] · w[k, c] (k over 256 columns).
  * `biasRelu a b`                         : max (a[r, c] + b[0, c]) 0, the bias a row vector held as a [1, 256] array.
  * `addRowBias z b`                       : z[r, c] + b[0, c] for 64 columns.
  * `rowOf256 b`, `rowOf64 b`             : a bias vector laid out as one row, b[0, c] = b[c].
  * `rowMax z r`                           : the largest of row r's 64 entries (the fold of max from -∞).
  * `logSoftmaxRows z`                     : (z[r, c] - rowMax z r) - log Σ_j exp (z[r, j] - rowMax z r).
-/
import Idealize.ShloMosaic.PureOps.Ideal
import Idealize.ShloMosaic.Lib.ValueIdx

noncomputable section

namespace Cert.Gcn

open Idealize.ShloMosaic Idealize.ShloMosaic.ValueIdx

/-- Node features: one row of 256 numbers for each of the 100000 nodes. -/
abbrev Feat : Shape := ⟨2, ![100000, 256]⟩
/-- Class scores: one row of 64 numbers for each node. -/
abbrev Score : Shape := ⟨2, ![100000, 64]⟩
/-- A square weight matrix. -/
abbrev Wsq : Shape := ⟨2, ![256, 256]⟩
/-- The output weight matrix. -/
abbrev Wout : Shape := ⟨2, ![256, 64]⟩
/-- A bias held as one row of 256. -/
abbrev Row256 : Shape := ⟨2, ![1, 256]⟩
/-- A bias held as one row of 64. -/
abbrev Row64 : Shape := ⟨2, ![1, 64]⟩

/-- A bias vector of 256 numbers laid out as one row. -/
def rowOf256 (b : (⟨1, ![256]⟩ : Shape).Idx → EReal) : Row256.Idx → EReal := fun i => b (ix1 (n := 256) (i 1))
/-- A bias vector of 64 numbers laid out as one row. -/
def rowOf64 (b : (⟨1, ![64]⟩ : Shape).Idx → EReal) : Row64.Idx → EReal := fun i => b (ix1 (n := 64) (i 1))

/-- The matrix product of the node features with a square weight matrix. -/
def rowsTimes256 (x : Feat.Idx → EReal) (w : Wsq.Idx → EReal) : Feat.Idx → EReal :=
  fun i => ∑ k : Fin 256, x (ix2 (n0 := 100000) (n1 := 256) (i 0) k) * w (ix2 (n0 := 256) (n1 := 256) k (i 1))

/-- The matrix product of the node features with the output weight matrix. -/
def rowsTimes64 (x : Feat.Idx → EReal) (w : Wout.Idx → EReal) : Score.Idx → EReal :=
  fun i => ∑ k : Fin 256, x (ix2 (n0 := 100000) (n1 := 256) (i 0) k) * w (ix2 (n0 := 256) (n1 := 64) k (i 1))

/-- Add the bias row to every node's row and clip below at zero. -/
def biasRelu (a : Feat.Idx → EReal) (b : Row256.Idx → EReal) : Feat.Idx → EReal :=
  fun i => max (a i + b (ix2 (n0 := 1) (n1 := 256) 0 (i 1))) 0

/-- Add the bias row to every node's row of scores. -/
def addRowBias (z : Score.Idx → EReal) (b : Row64.Idx → EReal) : Score.Idx → EReal :=
  fun i => z i + b (ix2 (n0 := 1) (n1 := 64) 0 (i 1))

/-- The largest score of node `r`. -/
def rowMax (z : Score.Idx → EReal) (r : Fin 100000) : EReal :=
  (Finset.univ : Finset (Fin 64)).fold max ⊥ (fun k => z (ix2 (n0 := 100000) (n1 := 64) r k))

/-- The logarithm of the softmax along each node's row, computed the stable way: shift by the row's maximum, then
    subtract the logarithm of the sum of the exponentials of the shifted row. -/
def logSoftmaxRows (z : Score.Idx → EReal) : Score.Idx → EReal :=
  fun i => (z i - rowMax z (i 0))
    - Ideal.log (∑ k : Fin 64, Ideal.exp (z (ix2 (n0 := 100000) (n1 := 64) (i 0) k) - rowMax z (i 0)))

end Cert.Gcn

end
-- ==== Proof.Graph.lean ====
/-
  The edge side of the network, as the kernel program's host operations compute it.
  The 900000 edges are the 800000 given ones followed by one self-loop per node: `srcIdx` and `dstIdx` are their
  source and destination nodes. A negative node number is wrapped once by the number of nodes before it is used to
  gather (`wrapCol`), as jnp indexing does. The in-degree of a node counts the edges arriving there; an edge's weight
  `edgeNorm` is the product of the inverse square roots of the degrees of its two ends; `aggregate h` gathers the
  source node's feature row of every edge, scales it by the edge's weight and adds it into the destination node's row.
-/
import proofs.«146392_j10118942949882_1_alg».proof.KernelIdeal
import proofs.«146392_j10118942949882_1_alg».proof.Proof.Gen.KernelIdeal
import proofs.«146392_j10118942949882_1_alg».proof.Proof.Spec

noncomputable section

open Idealize.ShloMosaic Idealize.ShloMosaic.TcCoe Idealize.SL.Sem

namespace Cert.KernelIdeal.Net

open Cert.KernelIdeal Cert.KernelIdeal.Gen

variable {F : FTy → Type} [FloatOps F]

/-- An integer array of the given shape. -/
abbrev IArr (F : FTy → Type) (S : Shape) := (⟨S, .i32⟩ : BufTy).Contents (Elt F)
/-- A float array of the given shape. -/
abbrev FArr (F : FTy → Type) (S : Shape) := (⟨S, .f32⟩ : BufTy).Contents (Elt F)

/-- The source node of every edge: row 0 of the edge list, then the nodes themselves (the self-loops). -/
def srcIdx (ei : IArr F S2x800000) : IArr F S900000 :=
  concatenate S900000 0 [⟨S800000, shapeCast S800000 (extractStridedSlice S1x800000 ![0, 0] ei slices_S2x800000_S1x800000_0_0) shapeCasts_S1x800000_S800000⟩, ⟨S100000, iotaInDim S100000 32 0⟩] concatenates_S800000_S100000_S900000_d0

/-- The destination node of every edge: row 1 of the edge list, then the nodes themselves. -/
def dstIdx (ei : IArr F S2x800000) : IArr F S900000 :=
  concatenate S900000 0 [⟨S800000, shapeCast S800000 (extractStridedSlice S1x800000 ![1, 0] ei slices_S2x800000_S1x800000_1_0) shapeCasts_S1x800000_S800000⟩, ⟨S100000, iotaInDim S100000 32 0⟩] concatenates_S800000_S100000_S900000_d0

/-- Node numbers as a column of gather indices, a negative one wrapped once by the number of nodes. -/
def wrapCol (v : IArr F S900000) : IArr F S900000x1 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 100000#32))) v)

/-- The inverse square root of every node's in-degree (each edge adds one at its destination). -/
def degInvSqrt (dst : IArr F S900000) : FArr F S100000 :=
  Host.rsqrt (Host.scatterAdd scatter_S100000_S900000x1_S900000_n_0_0_1
    (broadcastInDim S100000 ![] bcast_S_S100000 (constant S_ .f32 0x00000000#32))
    (broadcastInDim S900000x1 ![0] bcast_S900000_S900000x1_0 dst)
    (broadcastInDim S900000 ![] bcast_S_S900000 (constant S_ .f32 0x3F800000#32)))

/-- An edge's weight from a per-node factor: the factor at its source times the factor at its destination. -/
def edgeNormOf (dis : FArr F S100000) (src dst : IArr F S900000) : FArr F S900000 :=
  mulf (Host.gather gather_S100000_S900000x1_S900000_n_0_n_n_0_1_1 dis (wrapCol src))
    (Host.gather gather_S100000_S900000x1_S900000_n_0_n_n_0_1_1 dis (wrapCol dst))

/-- The symmetric normalisation weight of every edge. -/
def edgeNorm (src dst : IArr F S900000) : FArr F S900000 := edgeNormOf (degInvSqrt dst) src dst

/-- Gather each edge's source row, scale by the edge's weight, add into the destination row. -/
def aggregate (src dst : IArr F S900000) (nrm : FArr F S900000) (h : FArr F S100000x256) : FArr F S100000x256 :=
  Host.scatterAdd scatter_S100000x256_S900000x1_S900000x256_1_0_0_1
    (broadcastInDim S100000x256 ![] bcast_S_S100000x256 (constant S_ .f32 0x00000000#32))
    (broadcastInDim S900000x1 ![0] bcast_S900000_S900000x1_0 dst)
    (mulf (Host.gather gather_S100000x256_S900000x1_S900000x256_1_0_n_n_0_1_1256 h (wrapCol src))
      (broadcastInDim S900000x256 ![0, 1] bcast_S900000x1_S900000x256_0_1 (broadcastInDim S900000x1 ![0] bcast_S900000_S900000x1_0 nrm)))

/-- One graph-convolution layer over the extended reals: multiply by the weights, aggregate over the edges, add the
    bias and clip at zero. -/
def layer (ei : IArr Ideal S2x800000) (x : FArr Ideal S100000x256) (w : FArr Ideal S256x256) (b : FArr Ideal S256) : FArr Ideal S100000x256 :=
  Cert.Gcn.biasRelu (aggregate (srcIdx ei) (dstIdx ei) (edgeNorm (srcIdx ei) (dstIdx ei)) (Cert.Gcn.rowsTimes256 x w)) (Cert.Gcn.rowOf256 b)

/-- The whole network as one function of the eight argument arrays: two layers, the output product with its bias, and
    the logarithm of the softmax along each row. -/
def net (x : FArr Ideal S100000x256) (ei : IArr Ideal S2x800000) (w1 : FArr Ideal S256x256) (b1 : FArr Ideal S256)
    (w2 : FArr Ideal S256x256) (b2 : FArr Ideal S256) (wo : FArr Ideal S256x64) (bo : FArr Ideal S64) : FArr Ideal S100000x64 :=
  Cert.Gcn.logSoftmaxRows (Cert.Gcn.addRowBias (Cert.Gcn.rowsTimes64 (layer ei (layer ei x w1 b1) w2 b2) wo) (Cert.Gcn.rowOf64 bo))

end Cert.KernelIdeal.Net

end
-- ==== Proof.RegionMatmul.lean ====
import proofs.«146392_j10118942949882_1_alg».proof.Proof.Gen.KernelIdeal.Frame
import proofs.«146392_j10118942949882_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Dense

open Cert.KernelIdeal Cert.KernelIdeal.Gen Idealize.ShloMosaic.ValueIdx

/-!
# The two tiled matrix products

Each of the two products runs over 25 tiles; tile `t` multiplies rows `4000 t … 4000 t + 3999` of the feature array by the
whole [256, 256] weight array and writes the result to the same rows of the output. At one element the tile's result is
`Σ_k x[4000 t + p, k] · w[k, q]`, which is the whole-array product at row `4000 t + p` and column `q`; the 25 row blocks
tile the 100000 rows, so the output array ends holding the whole-array product.
-/

-- the contents of the TensorCore's buffers when the region is entered
variable (V : (c : Dev nD) → (b : Ref sig .tc) → Buf (Elt Ideal) ((c : Thread nD τ).loc b))

/-! ## The block product at an index

A tile's product of a [4000, 256] block with the whole [256, 256] weight, read at row `p` and column `q`, is the sum
over the 256 contracted columns of the block's row times the weight's column: the narrowing casts are the identity on
the extended reals and the accumulator starts at zero. -/

/-- Both offsets of a whole-buffer access are zero. -/
private theorem mm_hz : (![0, 0] : Fin 2 → Nat) = fun _ => 0 := funext fun a => by fin_cases a <;> rfl

/-- The left operand's row is the output's row … -/
private theorem mm_lhs_0 (i : S4000x256.Idx) (q : dot_S4000x256_S256x256_S4000x256_1_0_0_1_n_n.contr.Idx) :
    (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
/-- … and its column the contraction index; -/
private theorem mm_lhs_1 (i : S4000x256.Idx) (q : dot_S4000x256_S256x256_S4000x256_1_0_0_1_n_n.contr.Idx) :
    (dot_S4000x256_S256x256_S4000x256_1_0_0_1_n_n.lhsIdx i q 1).val = (q ⟨0, by decide⟩).val :=
  dot_S4000x256_S256x256_S4000x256_1_0_0_1_n_n.lhsIdx_val_of_single rfl i q
/-- the right operand's row is the contraction index … -/
private theorem mm_rhs_0 (i : S4000x256.Idx) (q : dot_S4000x256_S256x256_S4000x256_1_0_0_1_n_n.contr.Idx) :
    (dot_S4000x256_S256x256_S4000x256_1_0_0_1_n_n.rhsIdx i q 0).val = (q ⟨0, by decide⟩).val :=
  dot_S4000x256_S256x256_S4000x256_1_0_0_1_n_n.rhsIdx_val_of_single rfl i q
/-- … and its column the output's column. -/
private theorem mm_rhs_1 (i : S4000x256.Idx) (q : dot_S4000x256_S256x256_S4000x256_1_0_0_1_n_n.contr.Idx) :
    (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The product of two blocks into a zero accumulator, at an index: the sum over the contracted axis. -/
private theorem mm_dot_apply (a : FVec Ideal S4000x256 .bf16) (b : FVec Ideal S256x256 .bf16) (p : Fin 4000) (q : Fin 256) :
    (matmul dot_S4000x256_S256x256_S4000x256_1_0_0_1_n_n none a b (constant (F := Ideal) S4000x256 .f32 0x00000000#32) : FVec Ideal S4000x256 .f32) (ix2 p q)
      = ∑ k : Fin 256, a (ix2 p k) * b (ix2 k q) := by
  refine (Ideal.matmul_constant_zero_apply dot_S4000x256_S256x256_S4000x256_1_0_0_1_n_n none a b (ix2 p q)).trans ?_
  rw [← Equiv.sum_comp (ValueIdx.contrEquiv1 dot_S4000x256_S256x256_S4000x256_1_0_0_1_n_n 256 rfl rfl).symm]
  refine Finset.sum_congr rfl fun k _ => ?_
  have hk := ValueIdx.contrEquiv1_symm_val dot_S4000x256_S256x256_S4000x256_1_0_0_1_n_n 256 rfl rfl k
  have el : dot_S4000x256_S256x256_S4000x256_1_0_0_1_n_n.lhsIdx (ix2 p q) ((ValueIdx.contrEquiv1 dot_S4000x256_S256x256_S4000x256_1_0_0_1_n_n 256 rfl rfl).symm k) = ix2 p k := funext fun a => Fin.ext (by
    match a with
    | ⟨0, _⟩ => exact mm_lhs_0 _ _
    | ⟨1, _⟩ => exact (mm_lhs_1 _ _).trans hk)
  have er : dot_S4000x256_S256x256_S4000x256_1_0_0_1_n_n.rhsIdx (ix2 p q) ((ValueIdx.contrEquiv1 dot_S4000x256_S256x256_S4000x256_1_0_0_1_n_n 256 rfl rfl).symm k) = ix2 k q := funext fun a => Fin.ext (by
    match a with
    | ⟨0, _⟩ => exact (mm_rhs_0 _ _).trans hk
    | ⟨1, _⟩ => exact mm_rhs_1 _ _)
  rw [el, er]

/-- The first layer's tile at an index. -/
private theorem mm_pay0_apply (x0 : Vec Ideal S4000x256 .f32) (x1 : Vec Ideal S256x256 .f32) (p : Fin 4000) (q : Fin 256) :
    (k0_pay1 (F := Ideal) x0 x1 : Vec Ideal S4000x256 .f32) (ix2 p q) = ∑ k : Fin 256, x0 (ix2 p k) * x1 (ix2 k q) := by
  unfold k0_pay1
  exact mm_dot_apply (truncf .bf16 x0 bitsLt_bf16_f32) (truncf .bf16 x1 bitsLt_bf16_f32) p q

/-- The second layer's tile at an index: the same product (its one more cast keeps the shape). -/
private theorem mm_pay2_apply (x0 : Vec Ideal S4000x256 .f32) (x1 : Vec Ideal S256x256 .f32) (p : Fin 4000) (q : Fin 256) :
    (k2_pay1 (F := Ideal) x0 x1 : Vec Ideal S4000x256 .f32) (ix2 p q) = ∑ k : Fin 256, x0 (ix2 p k) * x1 (ix2 k q) := by
  unfold k2_pay1
  simp only [shapeCast_self]
  exact mm_dot_apply (truncf .bf16 x0 bitsLt_bf16_f32) (truncf .bf16 x1 bitsLt_bf16_f32) p q

/-! ## Region 0: from the tiles to the whole array -/

/-- The block index maps over the grid: the row windows sit at block `t` of the rows and block 0 of the columns, the
    weight window at block (0, 0). -/
private theorem mm_idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row window's block at point `t` is rows `4000 t … 4000 t + 3999` of its array. -/
private theorem mm_iblk0_0_apply (c : Dev nD) (t : Fin cfg0.N) (p : Fin 4000) (k : Fin 256) (r : Fin 100000)
    (hr : r.val = 4000 * t.val + p.val) :
    (iblk0 (F := Ideal) V c 0 t : Vec Ideal S4000x256 .f32) (ix2 p k) = (V c main_arg0 : S100000x256.Idx → EReal) (ix2 r k) := by
  obtain ⟨e0, e1, -⟩ := mm_idx_facts0 t
  unfold iblk0
  rw [View.read_apply]
  show V c main_arg0 _ = V c main_arg0 _
  congr 1
  funext a
  apply Fin.ext
  match a with
  | ⟨0, _⟩ => show win0_0.index t 0 * 4000 + 1 * p.val = r.val; rw [e0, hr]; omega
  | ⟨1, _⟩ => show win0_0.index t 1 * 256 + 1 * k.val = k.val; rw [e1]; omega

/-- The weight window's block at every point is the whole weight array. -/
private theorem mm_iblk0_1_apply (c : Dev nD) (t : Fin cfg0.N) (k q : Fin 256) :
    (iblk0 (F := Ideal) V c 1 t : Vec Ideal S256x256 .f32) (ix2 k q) = (V c main_arg2 : S256x256.Idx → EReal) (ix2 k q) := by
  obtain ⟨-, -, e2, e3, -⟩ := mm_idx_facts0 t
  unfold iblk0
  rw [View.read_apply]
  show V c main_arg2 _ = V c main_arg2 _
  congr 1
  funext a
  apply Fin.ext
  match a with
  | ⟨0, _⟩ => show win0_1.index t 0 * 256 + 1 * k.val = k.val; rw [e2]; omega
  | ⟨1, _⟩ => show win0_1.index t 1 * 256 + 1 * q.val = q.val; rw [e3]; omega

/-- WHAT POINT `t` WRITES BACK is block `t` of the matrix product of the two arrays. -/
private theorem mm_flushed0_eq (c : Dev nD) (t : Fin cfg0.N) :
    (dat0 (F := Ideal) V c).flushed 2 t
      = ((cfg0.win 2).blk t).view.read (Elt Ideal) (Cert.Gcn.rowsTimes256 (V c main_arg0) (V c main_arg2)) := by
  show (cfg0.win 2).cut (grid0.coords t) ((dat0 V c).after 2 t) = _
  rw [after0_2]
  unfold out0_2
  rw [View.canon_unit_zero mm_hz]
  simp only [View.ld_unit_zero (S := S4000x256) mm_hz, View.ld_unit_zero (S := S256x256) mm_hz]
  obtain ⟨-, -, -, -, e4, e5⟩ := mm_idx_facts0 t
  have hN : t.val < 25 := lt_of_lt_of_eq t.isLt N_0
  funext j
  have hj0 : (j 0).val < 4000 := (j 0).isLt
  have hj1 : (j 1).val < 256 := (j 1).isLt
  have hx : (cfg0.win 2).xinj (grid0.coords t) j = ix2 (n0 := 4000) (n1 := 256) ⟨(j 0).val, hj0⟩ ⟨(j 1).val, hj1⟩ :=
    funext fun a => by match a with | ⟨0, _⟩ => rfl | ⟨1, _⟩ => rfl
  have he : ((cfg0.win 2).blk t).view.emb j
      = ix2 (n0 := 100000) (n1 := 256) ⟨4000 * t.val + (j 0).val, by omega⟩ ⟨(j 1).val, hj1⟩ :=
    funext fun a => Fin.ext (by
      match a with
      | ⟨0, _⟩ => show win0_2.index t 0 * 4000 + 1 * (j 0).val = 4000 * t.val + (j 0).val; rw [e4]; omega
      | ⟨1, _⟩ => show win0_2.index t 1 * 256 + 1 * (j 1).val = (j 1).val; rw [e5]; omega)
  rw [View.read_apply]
  show k0_pay1 (F := Ideal) (iblk0 V c 0 t) (iblk0 V c 1 t) ((cfg0.win 2).xinj (grid0.coords t) j)
    = Cert.Gcn.rowsTimes256 (V c main_arg0) (V c main_arg2) (((cfg0.win 2).blk t).view.emb j)
  rw [hx, he]
  refine (mm_pay0_apply (iblk0 V c 0 t) (iblk0 V c 1 t) ⟨(j 0).val, hj0⟩ ⟨(j 1).val, hj1⟩).trans ?_
  unfold Cert.Gcn.rowsTimes256
  refine Finset.sum_congr rfl fun k _ => ?_
  rw [mm_iblk0_0_apply V c t ⟨(j 0).val, hj0⟩ k ⟨4000 * t.val + (j 0).val, by omega⟩ rfl, mm_iblk0_1_apply V c t k ⟨(j 1).val, hj1⟩]

/-- An index of the array is in point `t`'s block iff each coordinate is in the block's range on its axis. -/
private theorem mm_mem_blk0 (t : Fin cfg0.N) (i : S100000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v27).slice (win0_2.rect t)).set ↔ _
  rw [View.set_slice_whole, Rect.mem_set_unit]
  exact Iff.rfl

/-- Every row of the array lies in the block of the point its row number divided by 4000 names. -/
private theorem mm_cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 25 := N_0
  refine ⟨⟨(i 0).val / 4000, by rw [hN]; omega⟩, flush0_2 _, ?_⟩
  rw [mm_mem_blk0]
  obtain ⟨-, -, -, -, e4, e5⟩ := mm_idx_facts0 ⟨(i 0).val / 4000, by rw [hN]; omega⟩
  intro a
  match a with
  | ⟨0, _⟩ => show win0_2.index ⟨(i 0).val / 4000, _⟩ (0 : Fin 2) * 4000 ≤ (i 0).val ∧ (i 0).val < win0_2.index ⟨(i 0).val / 4000, _⟩ (0 : Fin 2) * 4000 + 4000; rw [e4]; show (i 0).val / 4000 * 4000 ≤ (i 0).val ∧ (i 0).val < (i 0).val / 4000 * 4000 + 4000; omega
  | ⟨1, _⟩ => show win0_2.index ⟨(i 0).val / 4000, _⟩ (1 : Fin 2) * 256 ≤ (i 1).val ∧ (i 1).val < win0_2.index ⟨(i 0).val / 4000, _⟩ (1 : Fin 2) * 256 + 256; rw [e5]; omega

/-- After the first tiled product the result array holds the matrix product of the two operand arrays. -/
theorem region0_value (c : Dev nD) :
    (dat0 (F := Ideal) V c).arrAt 2 cfg0.N = Cert.Gcn.rowsTimes256 (V c main_arg0) (V c main_arg2) :=
  (dat0 (F := Ideal) V c).arrAt_eq_of_cover 2 (Cert.Gcn.rowsTimes256 (V c main_arg0) (V c main_arg2))
    (fun t _ => mm_flushed0_eq V c t) mm_cover0

/-! ## Region 2: from the tiles to the whole array -/

/-- The block index maps over the grid: the row windows sit at block `t` of the rows and block 0 of the columns, the
    weight window at block (0, 0). -/
private theorem mm_idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row window's block at point `t` is rows `4000 t … 4000 t + 3999` of its array. -/
private theorem mm_iblk2_0_apply (c : Dev nD) (t : Fin cfg2.N) (p : Fin 4000) (k : Fin 256) (r : Fin 100000)
    (hr : r.val = 4000 * t.val + p.val) :
    (iblk2 (F := Ideal) V c 0 t : Vec Ideal S4000x256 .f32) (ix2 p k) = (V c main_v42 : S100000x256.Idx → EReal) (ix2 r k) := by
  obtain ⟨e0, e1, -⟩ := mm_idx_facts2 t
  unfold iblk2
  rw [View.read_apply]
  show V c main_v42 _ = V c main_v42 _
  congr 1
  funext a
  apply Fin.ext
  match a with
  | ⟨0, _⟩ => show win2_0.index t 0 * 4000 + 1 * p.val = r.val; rw [e0, hr]; omega
  | ⟨1, _⟩ => show win2_0.index t 1 * 256 + 1 * k.val = k.val; rw [e1]; omega

/-- The weight window's block at every point is the whole weight array. -/
private theorem mm_iblk2_1_apply (c : Dev nD) (t : Fin cfg2.N) (k q : Fin 256) :
    (iblk2 (F := Ideal) V c 1 t : Vec Ideal S256x256 .f32) (ix2 k q) = (V c main_arg4 : S256x256.Idx → EReal) (ix2 k q) := by
  obtain ⟨-, -, e2, e3, -⟩ := mm_idx_facts2 t
  unfold iblk2
  rw [View.read_apply]
  show V c main_arg4 _ = V c main_arg4 _
  congr 1
  funext a
  apply Fin.ext
  match a with
  | ⟨0, _⟩ => show win2_1.index t 0 * 256 + 1 * k.val = k.val; rw [e2]; omega
  | ⟨1, _⟩ => show win2_1.index t 1 * 256 + 1 * q.val = q.val; rw [e3]; omega

/-- WHAT POINT `t` WRITES BACK is block `t` of the matrix product of the two arrays. -/
private theorem mm_flushed2_eq (c : Dev nD) (t : Fin cfg2.N) :
    (dat2 (F := Ideal) V c).flushed 2 t
      = ((cfg2.win 2).blk t).view.read (Elt Ideal) (Cert.Gcn.rowsTimes256 (V c main_v42) (V c main_arg4)) := by
  show (cfg2.win 2).cut (grid2.coords t) ((dat2 V c).after 2 t) = _
  rw [after2_2]
  unfold out2_2
  rw [View.canon_unit_zero mm_hz]
  simp only [View.ld_unit_zero (S := S4000x256) mm_hz, View.ld_unit_zero (S := S256x256) mm_hz]
  obtain ⟨-, -, -, -, e4, e5⟩ := mm_idx_facts2 t
  have hN : t.val < 25 := lt_of_lt_of_eq t.isLt N_2
  funext j
  have hj0 : (j 0).val < 4000 := (j 0).isLt
  have hj1 : (j 1).val < 256 := (j 1).isLt
  have hx : (cfg2.win 2).xinj (grid2.coords t) j = ix2 (n0 := 4000) (n1 := 256) ⟨(j 0).val, hj0⟩ ⟨(j 1).val, hj1⟩ :=
    funext fun a => by match a with | ⟨0, _⟩ => rfl | ⟨1, _⟩ => rfl
  have he : ((cfg2.win 2).blk t).view.emb j
      = ix2 (n0 := 100000) (n1 := 256) ⟨4000 * t.val + (j 0).val, by omega⟩ ⟨(j 1).val, hj1⟩ :=
    funext fun a => Fin.ext (by
      match a with
      | ⟨0, _⟩ => show win2_2.index t 0 * 4000 + 1 * (j 0).val = 4000 * t.val + (j 0).val; rw [e4]; omega
      | ⟨1, _⟩ => show win2_2.index t 1 * 256 + 1 * (j 1).val = (j 1).val; rw [e5]; omega)
  rw [View.read_apply]
  show k2_pay1 (F := Ideal) (iblk2 V c 0 t) (iblk2 V c 1 t) ((cfg2.win 2).xinj (grid2.coords t) j)
    = Cert.Gcn.rowsTimes256 (V c main_v42) (V c main_arg4) (((cfg2.win 2).blk t).view.emb j)
  rw [hx, he]
  refine (mm_pay2_apply (iblk2 V c 0 t) (iblk2 V c 1 t) ⟨(j 0).val, hj0⟩ ⟨(j 1).val, hj1⟩).trans ?_
  unfold Cert.Gcn.rowsTimes256
  refine Finset.sum_congr rfl fun k _ => ?_
  rw [mm_iblk2_0_apply V c t ⟨(j 0).val, hj0⟩ k ⟨4000 * t.val + (j 0).val, by omega⟩ rfl, mm_iblk2_1_apply V c t k ⟨(j 1).val, hj1⟩]

/-- An index of the array is in point `t`'s block iff each coordinate is in the block's range on its axis. -/
private theorem mm_mem_blk2 (t : Fin cfg2.N) (i : S100000x256.Idx) :
    i ∈ ((cfg2.win 2).blk t).view.set ↔ ∀ a : Fin 2, win2_2.index t a * S4000x256.size a ≤ (i a).val ∧ (i a).val < win2_2.index t a * S4000x256.size a + S4000x256.size a := by
  show i ∈ ((View.whole main_v43).slice (win2_2.rect t)).set ↔ _
  rw [View.set_slice_whole, Rect.mem_set_unit]
  exact Iff.rfl

/-- Every row of the array lies in the block of the point its row number divided by 4000 names. -/
private theorem mm_cover2 (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hN : cfg2.N = 25 := N_2
  refine ⟨⟨(i 0).val / 4000, by rw [hN]; omega⟩, flush2_2 _, ?_⟩
  rw [mm_mem_blk2]
  obtain ⟨-, -, -, -, e4, e5⟩ := mm_idx_facts2 ⟨(i 0).val / 4000, by rw [hN]; omega⟩
  intro a
  match a with
  | ⟨0, _⟩ => show win2_2.index ⟨(i 0).val / 4000, _⟩ (0 : Fin 2) * 4000 ≤ (i 0).val ∧ (i 0).val < win2_2.index ⟨(i 0).val / 4000, _⟩ (0 : Fin 2) * 4000 + 4000; rw [e4]; show (i 0).val / 4000 * 4000 ≤ (i 0).val ∧ (i 0).val < (i 0).val / 4000 * 4000 + 4000; omega
  | ⟨1, _⟩ => show win2_2.index ⟨(i 0).val / 4000, _⟩ (1 : Fin 2) * 256 ≤ (i 1).val ∧ (i 1).val < win2_2.index ⟨(i 0).val / 4000, _⟩ (1 : Fin 2) * 256 + 256; rw [e5]; omega

/-- The same for the second layer's product. -/
theorem region2_value (c : Dev nD) :
    (dat2 (F := Ideal) V c).arrAt 2 cfg2.N = Cert.Gcn.rowsTimes256 (V c main_v42) (V c main_arg4) :=
  (dat2 (F := Ideal) V c).arrAt_eq_of_cover 2 (Cert.Gcn.rowsTimes256 (V c main_v42) (V c main_arg4))
    (fun t _ => mm_flushed2_eq V c t) mm_cover2

end Cert.KernelIdeal.Dense

end
-- ==== Proof.RegionBiasRelu.lean ====
import proofs.«146392_j10118942949882_1_alg».proof.Proof.Gen.KernelIdeal.Frame
import proofs.«146392_j10118942949882_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Clip

open Cert.KernelIdeal Cert.KernelIdeal.Gen Idealize.ShloMosaic.ValueIdx

-- the contents of the TensorCore's buffers when the region is entered
variable (V : (c : Dev nD) → (b : Ref sig .tc) → Buf (Elt Ideal) ((c : Thread nD τ).loc b))

/-- The offsets of an access to a whole buffer are zero on both axes. -/
private theorem zero_offsets : (![0, 0] : Fin 2 → Nat) = fun _ => 0 := funext fun a => by fin_cases a <;> rfl

/-! ## The first bias-and-clip kernel -/

/-- What the kernel stores at row `p`, column `q` of a block: the block's entry there plus the bias row's entry of
    column `q`, clipped below at zero. The two shape casts keep their shapes, the bias row is repeated down the 4000
    rows, and the constant the maximum is taken against is the zero word. -/
private theorem pay1_apply (x0 : Vec Ideal S4000x256 .f32) (x1 : Vec Ideal S1x256 .f32) (p : Fin 4000) (q : Fin 256) :
    k1_pay1 (F := Ideal) x0 x1 (ix2 p q) = max (x0 (ix2 p q) + x1 (ix2 (0 : Fin 1) q)) 0 := by
  unfold k1_pay1
  rw [shapeCast_self, shapeCast_self, maximumf_apply, addf_apply, broadcast_apply, broadcastTo_1b_ab_apply]
  show max _ (Ideal.ofBits .f32 0x00000000#32) = _
  rw [Ideal.ofBits_zero_f32]

/-- When the feature block's entry `(p, q)` is the feature array's entry at `i`, and the bias block's entry of column
    `q` is the bias array's entry of `i`'s column, the stored value at `(p, q)` is `biasRelu` of the two arrays at `i`. -/
private theorem pay1_eq_biasRelu (A : S100000x256.Idx → EReal) (B : S1x256.Idx → EReal)
    (x0 : Vec Ideal S4000x256 .f32) (x1 : Vec Ideal S1x256 .f32) (i : S100000x256.Idx) (p : Fin 4000) (q : Fin 256)
    (h0 : x0 (ix2 p q) = A i) (h1 : x1 (ix2 (0 : Fin 1) q) = B (ix2 (n0 := 1) (n1 := 256) 0 (i 1))) :
    k1_pay1 (F := Ideal) x0 x1 (ix2 p q) = Cert.Gcn.biasRelu A B i := by
  rw [pay1_apply, h0, h1]; rfl

/-- The windows' block indices at every point of the grid: the input features' block is the output's block, the
    bias window's block is always the first, and the output's block at point `t` is block `t` of rows, all columns. -/
private theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the feature array and the bias row as the region finds
    them: an element of a block sits in its array, on each axis, at block index × block size + its coordinate. -/
private theorem flushed1_eq (c : Dev nD) (t : Fin cfg1.N) :
    (dat1 (F := Ideal) V c).flushed 2 t
      = ((cfg1.win 2).blk t).view.read (Elt Ideal) (Cert.Gcn.biasRelu (V c main_v40) (V c main_v41)) := by
  show (cfg1.win 2).cut (grid1.coords t) ((dat1 V c).after 2 t) = _
  rw [after1_2]
  unfold out1_2
  rw [View.canon_unit_zero zero_offsets]
  simp only [View.ld_unit_zero (S := S4000x256) zero_offsets, View.ld_unit_zero (S := S1x256) zero_offsets]
  obtain ⟨e0, e1, e2, e3, e4, e5⟩ := idx_facts1 t
  funext j
  show k1_pay1 (F := Ideal) (iblk1 V c 0 t) (iblk1 V c 1 t) j
    = Cert.Gcn.biasRelu (V c main_v40) (V c main_v41) (((cfg1.win 2).blk t).view.emb j)
  obtain ⟨p, q, rfl⟩ : ∃ (p : Fin 4000) (q : Fin 256), j = ix2 p q := ⟨j 0, j 1, eq_ix2 j⟩
  refine pay1_eq_biasRelu _ _ _ _ _ p q ?_ ?_
  · show V c main_v40 (((cfg1.win 0).blk t).view.emb (ix2 p q)) = V c main_v40 (((cfg1.win 2).blk t).view.emb (ix2 p q))
    refine congrArg _ (funext fun a => Fin.ext ?_)
    match a with
    | ⟨0, _⟩ => show win1_0.index t (0 : Fin 2) * 4000 + 1 * p.val = win1_2.index t (0 : Fin 2) * 4000 + 1 * p.val; omega
    | ⟨1, _⟩ => show win1_0.index t (1 : Fin 2) * 256 + 1 * q.val = win1_2.index t (1 : Fin 2) * 256 + 1 * q.val; omega
  · show V c main_v41 (((cfg1.win 1).blk t).view.emb (ix2 (0 : Fin 1) q))
      = V c main_v41 (ix2 (n0 := 1) (n1 := 256) 0 ((((cfg1.win 2).blk t).view.emb (ix2 p q)) 1))
    refine congrArg _ (funext fun a => Fin.ext ?_)
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega

/-- An index of the result array is in point `t`'s block iff each coordinate is in the block's range on its axis. -/
private theorem mem_blk1 (t : Fin cfg1.N) (i : S100000x256.Idx) :
    i ∈ ((cfg1.win 2).blk t).view.set ↔ ∀ a : Fin 2, win1_2.index t a * S4000x256.size a ≤ (i a).val
      ∧ (i a).val < win1_2.index t a * S4000x256.size a + S4000x256.size a := by
  show i ∈ ((View.whole main_v42).slice (win1_2.rect t)).set ↔ _
  rw [View.set_slice_whole, Rect.mem_set_unit]
  exact Iff.rfl

/-- The blocks cover the result array: row `r` lies in the block of point `r / 4000`, and every point writes back. -/
private theorem cover1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := idx_facts1 t
  refine ⟨t, flush1_2 t, ?_⟩
  rw [mem_blk1]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 256 ≤ (i 1).val ∧ (i 1).val < win1_2.index t (1 : Fin 2) * 256 + 256
    omega

/-- After the first bias-and-clip kernel the result array holds `biasRelu` of the aggregated features and the bias row. -/
theorem region1_value (c : Dev nD) :
    (dat1 (F := Ideal) V c).arrAt 2 cfg1.N = Cert.Gcn.biasRelu (V c main_v40) (V c main_v41) :=
  (dat1 (F := Ideal) V c).arrAt_eq_of_cover 2 _ (fun t _ => flushed1_eq V c t) cover1

/-! ## The second bias-and-clip kernel: the same kernel over the second layer's arrays -/

/-- What the kernel stores at row `p`, column `q` of a block: the block's entry there plus the bias row's entry of
    column `q`, clipped below at zero. -/
private theorem pay3_apply (x0 : Vec Ideal S4000x256 .f32) (x1 : Vec Ideal S1x256 .f32) (p : Fin 4000) (q : Fin 256) :
    k3_pay1 (F := Ideal) x0 x1 (ix2 p q) = max (x0 (ix2 p q) + x1 (ix2 (0 : Fin 1) q)) 0 := by
  unfold k3_pay1
  rw [shapeCast_self, shapeCast_self, maximumf_apply, addf_apply, broadcast_apply, broadcastTo_1b_ab_apply]
  show max _ (Ideal.ofBits .f32 0x00000000#32) = _
  rw [Ideal.ofBits_zero_f32]

/-- When the feature block's entry `(p, q)` is the feature array's entry at `i`, and the bias block's entry of column
    `q` is the bias array's entry of `i`'s column, the stored value at `(p, q)` is `biasRelu` of the two arrays at `i`. -/
private theorem pay3_eq_biasRelu (A : S100000x256.Idx → EReal) (B : S1x256.Idx → EReal)
    (x0 : Vec Ideal S4000x256 .f32) (x1 : Vec Ideal S1x256 .f32) (i : S100000x256.Idx) (p : Fin 4000) (q : Fin 256)
    (h0 : x0 (ix2 p q) = A i) (h1 : x1 (ix2 (0 : Fin 1) q) = B (ix2 (n0 := 1) (n1 := 256) 0 (i 1))) :
    k3_pay1 (F := Ideal) x0 x1 (ix2 p q) = Cert.Gcn.biasRelu A B i := by
  rw [pay3_apply, h0, h1]; rfl

/-- The windows' block indices at every point of the grid: the input features' block is the output's block, the
    bias window's block is always the first, and the output's block at point `t` is block `t` of rows, all columns. -/
private theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `biasRelu` of the feature array and the bias row as the region finds
    them. -/
private theorem flushed3_eq (c : Dev nD) (t : Fin cfg3.N) :
    (dat3 (F := Ideal) V c).flushed 2 t
      = ((cfg3.win 2).blk t).view.read (Elt Ideal) (Cert.Gcn.biasRelu (V c main_v56) (V c main_v57)) := by
  show (cfg3.win 2).cut (grid3.coords t) ((dat3 V c).after 2 t) = _
  rw [after3_2]
  unfold out3_2
  rw [View.canon_unit_zero zero_offsets]
  simp only [View.ld_unit_zero (S := S4000x256) zero_offsets, View.ld_unit_zero (S := S1x256) zero_offsets]
  obtain ⟨e0, e1, e2, e3, e4, e5⟩ := idx_facts3 t
  funext j
  show k3_pay1 (F := Ideal) (iblk3 V c 0 t) (iblk3 V c 1 t) j
    = Cert.Gcn.biasRelu (V c main_v56) (V c main_v57) (((cfg3.win 2).blk t).view.emb j)
  obtain ⟨p, q, rfl⟩ : ∃ (p : Fin 4000) (q : Fin 256), j = ix2 p q := ⟨j 0, j 1, eq_ix2 j⟩
  refine pay3_eq_biasRelu _ _ _ _ _ p q ?_ ?_
  · show V c main_v56 (((cfg3.win 0).blk t).view.emb (ix2 p q)) = V c main_v56 (((cfg3.win 2).blk t).view.emb (ix2 p q))
    refine congrArg _ (funext fun a => Fin.ext ?_)
    match a with
    | ⟨0, _⟩ => show win3_0.index t (0 : Fin 2) * 4000 + 1 * p.val = win3_2.index t (0 : Fin 2) * 4000 + 1 * p.val; omega
    | ⟨1, _⟩ => show win3_0.index t (1 : Fin 2) * 256 + 1 * q.val = win3_2.index t (1 : Fin 2) * 256 + 1 * q.val; omega
  · show V c main_v57 (((cfg3.win 1).blk t).view.emb (ix2 (0 : Fin 1) q))
      = V c main_v57 (ix2 (n0 := 1) (n1 := 256) 0 ((((cfg3.win 2).blk t).view.emb (ix2 p q)) 1))
    refine congrArg _ (funext fun a => Fin.ext ?_)
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega

/-- An index of the result array is in point `t`'s block iff each coordinate is in the block's range on its axis. -/
private theorem mem_blk3 (t : Fin cfg3.N) (i : S100000x256.Idx) :
    i ∈ ((cfg3.win 2).blk t).view.set ↔ ∀ a : Fin 2, win3_2.index t a * S4000x256.size a ≤ (i a).val
      ∧ (i a).val < win3_2.index t a * S4000x256.size a + S4000x256.size a := by
  show i ∈ ((View.whole main_v58).slice (win3_2.rect t)).set ↔ _
  rw [View.set_slice_whole, Rect.mem_set_unit]
  exact Iff.rfl

/-- The blocks cover the result array: row `r` lies in the block of point `r / 4000`, and every point writes back. -/
private theorem cover3 (i : S100000x256.Idx) :
    ∃ t : Fin cfg3.N, (cfg3.win 2).flush t = true ∧ i ∈ ((cfg3.win 2).blk t).view.set := by
  have hi0 : (i 0).val < 100000 := (i 0).isLt
  have hi1 : (i 1).val < 256 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, e4, e5⟩ := idx_facts3 t
  refine ⟨t, flush3_2 t, ?_⟩
  rw [mem_blk3]
  intro a
  match a with
  | ⟨0, _⟩ =>
    show win3_2.index t (0 : Fin 2) * 4000 ≤ (i 0).val ∧ (i 0).val < win3_2.index t (0 : Fin 2) * 4000 + 4000
    omega
  | ⟨1, _⟩ =>
    show win3_2.index t (1 : Fin 2) * 256 ≤ (i 1).val ∧ (i 1).val < win3_2.index t (1 : Fin 2) * 256 + 256
    omega

/-- The same for the second layer. -/
theorem region3_value (c : Dev nD) :
    (dat3 (F := Ideal) V c).arrAt 2 cfg3.N = Cert.Gcn.biasRelu (V c main_v56) (V c main_v57) :=
  (dat3 (F := Ideal) V c).arrAt_eq_of_cover 2 _ (fun t _ => flushed3_eq V c t) cover3

end Cert.KernelIdeal.Clip

end
-- ==== Proof.RegionFinal.lean ====
import proofs.«146392_j10118942949882_1_alg».proof.Proof.Gen.KernelIdeal.Frame
import proofs.«146392_j10118942949882_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Scores

open Cert.KernelIdeal Cert.KernelIdeal.Gen Idealize.ShloMosaic.ValueIdx

-- the contents of the TensorCore's buffers when the region is entered
variable (V : (c : Dev nD) → (b : Ref sig .tc) → Buf (Elt Ideal) ((c : Thread nD τ).loc b))

/-! ## The contraction of the output product, re-indexed to the 256 shared columns -/

private theorem lhs_axis0 (i : S4000x64.Idx) (q : dot_S4000x256_S256x64_S4000x64_1_0_0_1_n_n.contr.Idx) :
    (dot_S4000x256_S256x64_S4000x64_1_0_0_1_n_n.lhsIdx i q 0).val = (i 0).val := by
  unfold DotDims.lhsIdx
  rw [dif_neg (show ¬(0 : Fin S4000x256.rank) ∈ dot_S4000x256_S256x64_S4000x64_1_0_0_1_n_n.lhsBatch by decide), dif_pos (show (0 : Fin S4000x256.rank) ∈ dot_S4000x256_S256x64_S4000x64_1_0_0_1_n_n.lhsNonContracting by decide)]
  rfl
private theorem lhs_axis1 (i : S4000x64.Idx) (q : dot_S4000x256_S256x64_S4000x64_1_0_0_1_n_n.contr.Idx) :
    (dot_S4000x256_S256x64_S4000x64_1_0_0_1_n_n.lhsIdx i q 1).val = (q ⟨0, by decide⟩).val :=
  dot_S4000x256_S256x64_S4000x64_1_0_0_1_n_n.lhsIdx_val_of_single rfl i q
private theorem rhs_axis0 (i : S4000x64.Idx) (q : dot_S4000x256_S256x64_S4000x64_1_0_0_1_n_n.contr.Idx) :
    (dot_S4000x256_S256x64_S4000x64_1_0_0_1_n_n.rhsIdx i q 0).val = (q ⟨0, by decide⟩).val :=
  dot_S4000x256_S256x64_S4000x64_1_0_0_1_n_n.rhsIdx_val_of_single rfl i q
private theorem rhs_axis1 (i : S4000x64.Idx) (q : dot_S4000x256_S256x64_S4000x64_1_0_0_1_n_n.contr.Idx) :
    (dot_S4000x256_S256x64_S4000x64_1_0_0_1_n_n.rhsIdx i q 1).val = (i 1).val := by
  unfold DotDims.rhsIdx
  rw [dif_neg (show ¬(1 : Fin S256x64.rank) ∈ dot_S4000x256_S256x64_S4000x64_1_0_0_1_n_n.rhsBatch by decide), dif_pos (show (1 : Fin S256x64.rank) ∈ dot_S4000x256_S256x64_S4000x64_1_0_0_1_n_n.rhsNonContracting by decide)]
  rfl

/-- The product into a zero accumulator, at row `p` and column `q`: the sum over the 256 shared columns. -/
private theorem product_apply (a : FVec Ideal S4000x256 .bf16) (b : FVec Ideal S256x64 .bf16) (p : Fin 4000) (q : Fin 64) :
    matmul dot_S4000x256_S256x64_S4000x64_1_0_0_1_n_n none a b (constant (F := Ideal) S4000x64 .f32 0x00000000#32) (ix2 p q)
      = ∑ k : Fin 256, a (ix2 p k) * b (ix2 k q) := by
  show FloatOps.matmul dot_S4000x256_S256x64_S4000x64_1_0_0_1_n_n none a b (constant (F := Ideal) S4000x64 .f32 0x00000000#32) (ix2 p q) = _
  rw [Ideal.matmul_constant_zero_apply, ← Equiv.sum_comp (ValueIdx.contrEquiv1 dot_S4000x256_S256x64_S4000x64_1_0_0_1_n_n 256 rfl rfl).symm]
  refine Finset.sum_congr rfl fun k _ => ?_
  have hk := ValueIdx.contrEquiv1_symm_val dot_S4000x256_S256x64_S4000x64_1_0_0_1_n_n 256 rfl rfl k
  have el : dot_S4000x256_S256x64_S4000x64_1_0_0_1_n_n.lhsIdx (ix2 p q) ((ValueIdx.contrEquiv1 dot_S4000x256_S256x64_S4000x64_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x64_S4000x64_1_0_0_1_n_n.rhsIdx (ix2 p q) ((ValueIdx.contrEquiv1 dot_S4000x256_S256x64_S4000x64_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The column forms: a per-row value spread along the row -/

/-- A per-row vector cast to one column reads, at row `p`, the vector at `p`. -/
private theorem column_apply {α : Type} (w : S4000.Idx → α) (p : Fin 4000) (u : Fin 1) :
    shapeCast S4000x1 w shapeCasts_S4000_S4000x1 (ix2 p u) = w (ix1 p) :=
  shapeCast_apply w shapeCasts_S4000_S4000x1 (ix2 p u) (ix1 p) (by
    have hu : u.val = 0 := by omega
    rw [Shape.rowMajor_val_one, Shape.rowMajor_val_two]
    show p.val = p.val * 1 + u.val
    omega)

/-- One column broadcast along the 64 columns reads, at `(p, q)`, the column at row `p`. -/
private theorem spread_apply {α : Type} (u : S4000x1.Idx → α) (p : Fin 4000) (q : Fin 64) :
    broadcastTo S4000x64 u broadcasts_S4000x1_S4000x64 (ix2 p q) = u (ix2 p (0 : Fin 1)) := by
  refine broadcastTo_apply u broadcasts_S4000x1_S4000x64 (ix2 p q) (ix2 p (0 : Fin 1)) fun ax => ?_
  match ax with
  | ⟨0, _⟩ =>
    show p.val = if (4000 : Nat) = 1 then 0 else p.val
    rw [if_neg (by decide)]
  | ⟨1, _⟩ =>
    show (0 : Nat) = if (1 : Nat) = 1 then 0 else q.val
    rw [if_pos rfl]

/-! ## The two reductions along a row -/

/-- The index a reduction along the columns reads: row `p`, column `k`. -/
private theorem lift_row (p : Fin 4000) (k : Fin 64) :
    reduces_S4000x64_S4000.lift (ix1 p) k = ix2 p k :=
  funext fun a => Fin.ext (by
    match a with
    | ⟨0, _⟩ => rfl
    | ⟨1, _⟩ => rfl)

/-- The bit pattern of minus infinity is the bottom of the extended reals. -/
private theorem negInf_eq_bot : (FloatOps.ofBits .f32 0xFF800000#32 : Ideal .f32) = ⊥ := by
  show Ideal.ofBits .f32 0xFF800000#32 = ⊥
  simp [Ideal.ofBits, Ideal.ieee]

/-- The maximum along the columns, at row `p`: the fold of `max` from minus infinity over the row's 64 entries. -/
private theorem rowmax_apply (v : FVec Ideal S4000x64 .f32) (p : Fin 4000) :
    multiReduction (F := Ideal) .maximumf [1] S4000 v 0xFF800000#32 reduces_S4000x64_S4000 (.inl rfl) rfl (ix1 p)
      = (Finset.univ : Finset (Fin 64)).fold max ⊥ (fun k => v (ix2 p k)) := by
  refine (Ideal.multiReduction_maximumf_single v 0xFF800000#32 reduces_S4000x64_S4000 (.inl rfl) rfl (ix1 p)).trans ?_
  rw [negInf_eq_bot]
  refine congrArg (Finset.fold max ⊥ · (Finset.univ : Finset (Fin 64))) (funext fun (k : Fin 64) => ?_)
  exact congrArg v (lift_row p k)

/-- The sum along the columns, at row `p`: the sum of the row's 64 entries. -/
private theorem rowsum_apply (v : FVec Ideal S4000x64 .f32) (p : Fin 4000) :
    multiReduction (F := Ideal) .add [1] S4000 v 0x00000000#32 reduces_S4000x64_S4000 (.inl rfl) rfl (ix1 p)
      = ∑ k : Fin 64, v (ix2 p k) := by
  refine (Ideal.multiReduction_add_single v 0x00000000#32 reduces_S4000x64_S4000 (.inl rfl) rfl (ix1 p)).trans ?_
  exact Finset.sum_congr rfl fun (k : Fin 64) _ => congrArg v (lift_row p k)

/-! ## The body's stored value, stage by stage -/

/-- The biased output product of the loaded blocks. -/
private def logits (x0 : Vec Ideal S4000x256 .f32) (x1 : Vec Ideal S256x64 .f32) (x2 : Vec Ideal S1x64 .f32) : FVec Ideal S4000x64 .f32 :=
  addf (matmul dot_S4000x256_S256x64_S4000x64_1_0_0_1_n_n none
      (truncf .bf16 (shapeCast S4000x256 x0 shapeCasts_S4000x256_S4000x256) bitsLt_bf16_f32) (truncf .bf16 x1 bitsLt_bf16_f32)
      (constant S4000x64 .f32 0x00000000#32))
    (broadcastTo S4000x64 (shapeCast S1x64 x2 shapeCasts_S1x64_S1x64) broadcasts_S1x64_S4000x64)

/-- Every row less its own maximum. -/
private def shiftRows (v : FVec Ideal S4000x64 .f32) : FVec Ideal S4000x64 .f32 :=
  subf v (broadcastTo S4000x64 (shapeCast S4000x1
    (multiReduction .maximumf [1] S4000 v 0xFF800000#32 reduces_S4000x64_S4000 (.inl rfl) rfl) shapeCasts_S4000_S4000x1) broadcasts_S4000x1_S4000x64)

/-- Every row less the logarithm of the sum of its exponentials. -/
private def lessLogSum (v : FVec Ideal S4000x64 .f32) : FVec Ideal S4000x64 .f32 :=
  subf v (broadcastTo S4000x64 (log (shapeCast S4000x1
    (multiReduction .add [1] S4000 (exp v) 0x00000000#32 reduces_S4000x64_S4000 (.inl rfl) rfl) shapeCasts_S4000_S4000x1)) broadcasts_S4000x1_S4000x64)

/-- The stored value is the three stages composed. -/
private theorem payload_eq (x0 : Vec Ideal S4000x256 .f32) (x1 : Vec Ideal S256x64 .f32) (x2 : Vec Ideal S1x64 .f32) :
    k4_pay1 (F := Ideal) x0 x1 x2 = lessLogSum (shiftRows (logits x0 x1 x2)) := rfl

/-- The score of row `p` and class `q` from the loaded blocks. -/
private def blockScore (x0 : Vec Ideal S4000x256 .f32) (x1 : Vec Ideal S256x64 .f32) (x2 : Vec Ideal S1x64 .f32) (p : Fin 4000) (q : Fin 64) : EReal :=
  (∑ k : Fin 256, x0 (ix2 p k) * x1 (ix2 k q)) + x2 (ix2 (0 : Fin 1) q)

/-- The largest score of row `p`. -/
private def blockTop (x0 : Vec Ideal S4000x256 .f32) (x1 : Vec Ideal S256x64 .f32) (x2 : Vec Ideal S1x64 .f32) (p : Fin 4000) : EReal :=
  (Finset.univ : Finset (Fin 64)).fold max ⊥ (fun k => blockScore x0 x1 x2 p k)

private theorem logits_apply (x0 : Vec Ideal S4000x256 .f32) (x1 : Vec Ideal S256x64 .f32) (x2 : Vec Ideal S1x64 .f32) (p : Fin 4000) (q : Fin 64) :
    logits x0 x1 x2 (ix2 p q) = blockScore x0 x1 x2 p q := by
  have e0 : shapeCast S4000x256 x0 shapeCasts_S4000x256_S4000x256 = x0 := shapeCast_self x0 _
  have e2 : shapeCast S1x64 x2 shapeCasts_S1x64_S1x64 = x2 := shapeCast_self x2 _
  unfold logits blockScore
  rw [e0, e2]
  show matmul dot_S4000x256_S256x64_S4000x64_1_0_0_1_n_n none (truncf .bf16 x0 bitsLt_bf16_f32) (truncf .bf16 x1 bitsLt_bf16_f32)
        (constant (F := Ideal) S4000x64 .f32 0x00000000#32) (ix2 p q)
      + broadcastTo S4000x64 x2 broadcasts_S1x64_S4000x64 (ix2 p q) = _
  rw [product_apply, broadcastTo_1b_ab_apply]
  rfl

private theorem shiftRows_apply (v : FVec Ideal S4000x64 .f32) (p : Fin 4000) (q : Fin 64) :
    shiftRows v (ix2 p q) = v (ix2 p q) - (Finset.univ : Finset (Fin 64)).fold max ⊥ (fun k => v (ix2 p k)) := by
  unfold shiftRows
  show v (ix2 p q) - broadcastTo S4000x64 (shapeCast S4000x1
    (multiReduction (F := Ideal) .maximumf [1] S4000 v 0xFF800000#32 reduces_S4000x64_S4000 (.inl rfl) rfl) shapeCasts_S4000_S4000x1) broadcasts_S4000x1_S4000x64 (ix2 p q) = _
  refine congrArg (v (ix2 p q) - ·) ?_
  exact (spread_apply _ p q).trans ((column_apply _ p 0).trans (rowmax_apply v p))

private theorem lessLogSum_apply (v : FVec Ideal S4000x64 .f32) (p : Fin 4000) (q : Fin 64) :
    lessLogSum v (ix2 p q) = v (ix2 p q) - Ideal.log (∑ k : Fin 64, Ideal.exp (v (ix2 p k))) := by
  unfold lessLogSum
  show v (ix2 p q) - broadcastTo S4000x64 (log (shapeCast S4000x1
    (multiReduction (F := Ideal) .add [1] S4000 (exp v) 0x00000000#32 reduces_S4000x64_S4000 (.inl rfl) rfl) shapeCasts_S4000_S4000x1)) broadcasts_S4000x1_S4000x64 (ix2 p q) = _
  refine congrArg (v (ix2 p q) - ·) ?_
  refine (spread_apply _ p q).trans ?_
  show Ideal.log (shapeCast S4000x1
    (multiReduction (F := Ideal) .add [1] S4000 (exp v) 0x00000000#32 reduces_S4000x64_S4000 (.inl rfl) rfl) shapeCasts_S4000_S4000x1 (ix2 p (0 : Fin 1))) = _
  refine congrArg Ideal.log ?_
  exact (column_apply _ p 0).trans (rowsum_apply (exp v) p)

/-- THE STORED VALUE AT ROW `p`, CLASS `q`: the score less the row's largest, less the logarithm of the sum over the
    row of the exponentials of the scores less the largest. -/
private theorem payload_apply (x0 : Vec Ideal S4000x256 .f32) (x1 : Vec Ideal S256x64 .f32) (x2 : Vec Ideal S1x64 .f32) (p : Fin 4000) (q : Fin 64) :
    k4_pay1 (F := Ideal) x0 x1 x2 (ix2 p q)
      = (blockScore x0 x1 x2 p q - blockTop x0 x1 x2 p)
        - Ideal.log (∑ k : Fin 64, Ideal.exp (blockScore x0 x1 x2 p k - blockTop x0 x1 x2 p)) := by
  rw [payload_eq, lessLogSum_apply]
  simp only [shiftRows_apply, logits_apply]
  rfl

/-! ## A stored element is the specification's element on the row its block's row sits on -/

private theorem stored_eq (a0 : Cert.Gcn.Feat.Idx → EReal) (a1 : Cert.Gcn.Wout.Idx → EReal) (a2 : Cert.Gcn.Row64.Idx → EReal)
    (x0 : Vec Ideal S4000x256 .f32) (x1 : Vec Ideal S256x64 .f32) (x2 : Vec Ideal S1x64 .f32)
    (j : S4000x64.Idx) (i : Cert.Gcn.Score.Idx)
    (h0 : ∀ k : Fin 256, x0 (ix2 (n0 := 4000) (n1 := 256) (j 0) k) = a0 (ix2 (n0 := 100000) (n1 := 256) (i 0) k))
    (h1 : ∀ y, x1 y = a1 y) (h2 : ∀ y, x2 y = a2 y) (hq : (i 1).val = (j 1).val) :
    k4_pay1 (F := Ideal) x0 x1 x2 j
      = Cert.Gcn.logSoftmaxRows (Cert.Gcn.addRowBias (Cert.Gcn.rowsTimes64 a0 a1) a2) i := by
  obtain rfl : x1 = a1 := funext h1
  obtain rfl : x2 = a2 := funext h2
  obtain ⟨p, q, rfl⟩ : ∃ (p : Fin 4000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hq
  have h0' : ∀ k : Fin 256, x0 (ix2 p k) = a0 (ix2 r k) := h0
  have hs : ∀ k : Fin 64, blockScore x0 x1 x2 p k = Cert.Gcn.addRowBias (Cert.Gcn.rowsTimes64 a0 x1) x2 (ix2 r k) := fun k => by
    unfold blockScore Cert.Gcn.addRowBias Cert.Gcn.rowsTimes64
    simp only [h0']
  have ht : blockTop x0 x1 x2 p = Cert.Gcn.rowMax (Cert.Gcn.addRowBias (Cert.Gcn.rowsTimes64 a0 x1) x2) r := by
    unfold blockTop Cert.Gcn.rowMax
    exact congrArg (Finset.fold max ⊥ · (Finset.univ : Finset (Fin 64))) (funext hs)
  rw [payload_apply]
  unfold Cert.Gcn.logSoftmaxRows
  simp only [hs, ht]

/-! ## From the blocks to the array -/

private theorem zeros2 : (![0, 0] : Fin 2 → Nat) = fun _ => 0 := funext fun a => by fin_cases a <;> rfl

/-- The block indices over the grid: the features' and the result's blocks move together down the rows, one block of
    4000 rows a point; the weights and the bias are whole at every point. -/
private theorem index_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the specification's array. -/
private theorem flushed_eq (c : Dev nD) (t : Fin cfg4.N) :
    (dat4 (F := Ideal) V c).flushed 3 t = ((cfg4.win 3).blk t).view.read (Elt Ideal)
      (Cert.Gcn.logSoftmaxRows (Cert.Gcn.addRowBias (Cert.Gcn.rowsTimes64 (V c main_v58) (V c main_arg6)) (V c main_v59))) := by
  show (cfg4.win 3).cut (grid4.coords t) ((dat4 V c).after 3 t) = _
  rw [after4_3]
  unfold out4_3
  rw [View.canon_unit_zero zeros2]
  simp only [View.ld_unit_zero (S := S4000x256) zeros2, View.ld_unit_zero (S := S256x64) zeros2, View.ld_unit_zero (S := S1x64) zeros2]
  obtain ⟨e00, e01, e10, e11, e20, e21, e30, e31⟩ := index_facts t
  funext j
  show k4_pay1 (F := Ideal) (iblk4 V c 0 t) (iblk4 V c 1 t) (iblk4 V c 2 t) j
    = Cert.Gcn.logSoftmaxRows (Cert.Gcn.addRowBias (Cert.Gcn.rowsTimes64 (V c main_v58) (V c main_arg6)) (V c main_v59))
        (((cfg4.win 3).blk t).view.emb j)
  refine stored_eq (V c main_v58) (V c main_arg6) (V c main_v59) _ _ _ j _ (fun k => ?_) (fun y => ?_) (fun y => ?_) ?_
  · show V c main_v58 (((cfg4.win 0).blk t).view.emb (ix2 (n0 := 4000) (n1 := 256) (j 0) k))
      = V c main_v58 (ix2 (n0 := 100000) (n1 := 256) ((((cfg4.win 3).blk t).view.emb j) 0) k)
    have h : ((cfg4.win 0).blk t).view.emb (ix2 (n0 := 4000) (n1 := 256) (j 0) k)
        = ix2 (n0 := 100000) (n1 := 256) ((((cfg4.win 3).blk t).view.emb j) 0) k := by
      funext a; apply Fin.ext
      match a with
      | ⟨0, _⟩ => show win4_0.index t (0 : Fin 2) * 4000 + 1 * (j 0).val = win4_3.index t (0 : Fin 2) * 4000 + 1 * (j 0).val; omega
      | ⟨1, _⟩ => show win4_0.index t (1 : Fin 2) * 256 + 1 * k.val = k.val; omega
    rw [h]
  · show V c main_arg6 (((cfg4.win 1).blk t).view.emb y) = V c main_arg6 y
    have h : ((cfg4.win 1).blk t).view.emb y = y := by
      funext a; apply Fin.ext
      match a with
      | ⟨0, _⟩ => show win4_1.index t (0 : Fin 2) * 256 + 1 * (y 0).val = (y 0).val; omega
      | ⟨1, _⟩ => show win4_1.index t (1 : Fin 2) * 64 + 1 * (y 1).val = (y 1).val; omega
    rw [h]
  · show V c main_v59 (((cfg4.win 2).blk t).view.emb y) = V c main_v59 y
    have h : ((cfg4.win 2).blk t).view.emb y = y := by
      funext a; apply Fin.ext
      match a with
      | ⟨0, _⟩ => show win4_2.index t (0 : Fin 2) * 1 + 1 * (y 0).val = (y 0).val; omega
      | ⟨1, _⟩ => show win4_2.index t (1 : Fin 2) * 64 + 1 * (y 1).val = (y 1).val; omega
    rw [h]
  · show win4_3.index t (1 : Fin 2) * 64 + 1 * (j 1).val = (j 1).val
    omega

/-- An index of the result array is in point `t`'s block iff each coordinate is in the block's range on its axis. -/
private theorem mem_blk (t : Fin cfg4.N) (i : S100000x64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v60).slice (win4_3.rect t)).set ↔ _
  rw [View.set_slice_whole, Rect.mem_set_unit]
  exact Iff.rfl

/-- Row `r` lies in the block of point `r / 4000`: the 25 blocks cover the array. -/
private theorem covered (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have ht : (i 0).val / 4000 < cfg4.N := by show (i 0).val / 4000 < 25; omega
  obtain ⟨-, -, -, -, -, -, e30, e31⟩ := index_facts ⟨(i 0).val / 4000, ht⟩
  refine ⟨⟨(i 0).val / 4000, ht⟩, flush4_3 _, ?_⟩
  rw [mem_blk]
  intro a
  match a with
  | ⟨0, _⟩ =>
    show win4_3.index ⟨(i 0).val / 4000, ht⟩ (0 : Fin 2) * 4000 ≤ (i 0).val ∧ (i 0).val < win4_3.index ⟨(i 0).val / 4000, ht⟩ (0 : Fin 2) * 4000 + 4000
    rw [e30]
    show (i 0).val / 4000 * 4000 ≤ (i 0).val ∧ (i 0).val < (i 0).val / 4000 * 4000 + 4000
    omega
  | ⟨1, _⟩ =>
    show win4_3.index ⟨(i 0).val / 4000, ht⟩ (1 : Fin 2) * 64 ≤ (i 1).val ∧ (i 1).val < win4_3.index ⟨(i 0).val / 4000, ht⟩ (1 : Fin 2) * 64 + 64
    rw [e31]
    omega

/-- After the last kernel the result array holds the row-wise log-softmax of the biased output product. -/
theorem region4_value (c : Dev nD) :
    (dat4 (F := Ideal) V c).arrAt 3 cfg4.N
      = Cert.Gcn.logSoftmaxRows (Cert.Gcn.addRowBias (Cert.Gcn.rowsTimes64 (V c main_v58) (V c main_arg6)) (V c main_v59)) :=
  (dat4 (F := Ideal) V c).arrAt_eq_of_cover 3 _ (fun t _ => flushed_eq V c t) covered

end Cert.KernelIdeal.Scores

end
-- ==== Proof.Thread.lean ====
/-
  The kernel program followed from the launch to its result, one segment at a time.
  The generated frame names the buffer contents at every segment boundary (W0 … W9). Here each boundary is read at the
  few buffers the rest of the program uses: the edge lists and edge weights after the first stretch of host
  operations, each tiled kernel's output array as the whole-array function its region computes, each aggregation as
  `aggregate` of what the previous kernel wrote, each bias reshaped into a row. At the end the result buffer holds
  `net` of the eight arguments.
-/
import proofs.«146392_j10118942949882_1_alg».proof.Proof.Gen.KernelIdeal.Frame
import proofs.«146392_j10118942949882_1_alg».proof.Proof.Graph
import proofs.«146392_j10118942949882_1_alg».proof.Proof.Spec
import proofs.«146392_j10118942949882_1_alg».proof.Proof.RegionMatmul
import proofs.«146392_j10118942949882_1_alg».proof.Proof.RegionBiasRelu
import proofs.«146392_j10118942949882_1_alg».proof.Proof.RegionFinal
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Net

open Cert.KernelIdeal Cert.KernelIdeal.Gen Cert.Gcn Idealize.ShloMosaic.ValueIdx

/-- A buffer none of a stretch's operations writes keeps its contents across the stretch. -/
macro "stretch_keeps " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg)

/-- The edge list, as launched. -/
abbrev edges (c : Dev nD) : IArr Ideal S2x800000 := m ((c : Thread nD τ).loc main_arg1)

/-- A vector reshaped to one row of 256 is the vector laid out as a row. -/
theorem reshape_row256 (b : FArr Ideal S256) :
    (fun i => shapeCast S1x256 b shapeCasts_S256_S1x256 i) = rowOf256 b := by
  funext i
  unfold rowOf256
  refine (shapeCast_addUnit_apply ![256] b shapeCasts_S256_S1x256 i).trans ?_
  exact congrArg b (funext fun a => by match a with | ⟨0, _⟩ => rfl)

/-- A vector reshaped to one row of 64 is the vector laid out as a row. -/
theorem reshape_row64 (b : FArr Ideal S64) :
    (fun i => shapeCast S1x64 b shapeCasts_S64_S1x64 i) = rowOf64 b := by
  funext i
  unfold rowOf64
  refine (shapeCast_addUnit_apply ![64] b shapeCasts_S64_S1x64 i).trans ?_
  exact congrArg b (funext fun a => by match a with | ⟨0, _⟩ => rfl)

/-! ## After the first stretch of host operations: the edges' ends, the edges' weights, the arguments -/

set_option maxHeartbeats 4000000 in
theorem w1_src (c : Dev nD) : W1 m ρ c (Proc.devRef .tc main_v3) = srcIdx (F := Ideal) (m ((c : Thread nD τ).loc main_arg1)) := by
  show StableHlo.after hostOps0 (W0 m ρ c) (Proc.devRef .tc main_v3) = _
  after_results
  rfl

set_option maxHeartbeats 4000000 in
theorem w1_dst (c : Dev nD) : W1 m ρ c (Proc.devRef .tc main_v6) = dstIdx (F := Ideal) (m ((c : Thread nD τ).loc main_arg1)) := by
  show StableHlo.after hostOps0 (W0 m ρ c) (Proc.devRef .tc main_v6) = _
  after_results
  rfl

set_option maxHeartbeats 4000000 in
theorem w1_nrm (c : Dev nD) : W1 m ρ c (Proc.devRef .tc main_v26)
    = edgeNorm (F := Ideal) (srcIdx (m ((c : Thread nD τ).loc main_arg1))) (dstIdx (m ((c : Thread nD τ).loc main_arg1))) := by
  show StableHlo.after hostOps0 (W0 m ρ c) (Proc.devRef .tc main_v26) = _
  after_results
  rfl

set_option maxHeartbeats 4000000 in
theorem w1_arg (c : Dev nD) :
    W1 m ρ c (Proc.devRef .tc main_arg0) = m ((c : Thread nD τ).loc main_arg0)
    ∧ W1 m ρ c (Proc.devRef .tc main_arg2) = m ((c : Thread nD τ).loc main_arg2)
    ∧ W1 m ρ c (Proc.devRef .tc main_arg3) = m ((c : Thread nD τ).loc main_arg3)
    ∧ W1 m ρ c (Proc.devRef .tc main_arg4) = m ((c : Thread nD τ).loc main_arg4)
    ∧ W1 m ρ c (Proc.devRef .tc main_arg5) = m ((c : Thread nD τ).loc main_arg5)
    ∧ W1 m ρ c (Proc.devRef .tc main_arg6) = m ((c : Thread nD τ).loc main_arg6)
    ∧ W1 m ρ c (Proc.devRef .tc main_arg7) = m ((c : Thread nD τ).loc main_arg7) := by
  refine ⟨?_, ?_, ?_, ?_, ?_, ?_, ?_⟩
  · show StableHlo.after hostOps0 (W0 m ρ c) (Proc.devRef .tc main_arg0) = _; stretch_keeps hostOps0
  · show StableHlo.after hostOps0 (W0 m ρ c) (Proc.devRef .tc main_arg2) = _; stretch_keeps hostOps0
  · show StableHlo.after hostOps0 (W0 m ρ c) (Proc.devRef .tc main_arg3) = _; stretch_keeps hostOps0
  · show StableHlo.after hostOps0 (W0 m ρ c) (Proc.devRef .tc main_arg4) = _; stretch_keeps hostOps0
  · show StableHlo.after hostOps0 (W0 m ρ c) (Proc.devRef .tc main_arg5) = _; stretch_keeps hostOps0
  · show StableHlo.after hostOps0 (W0 m ρ c) (Proc.devRef .tc main_arg6) = _; stretch_keeps hostOps0
  · show StableHlo.after hostOps0 (W0 m ρ c) (Proc.devRef .tc main_arg7) = _; stretch_keeps hostOps0

/-! ## Region 0: the first product -/

/-- What the first layer's product holds. -/
abbrev h1 (c : Dev nD) : FArr Ideal S100000x256 :=
  rowsTimes256 (m ((c : Thread nD τ).loc main_arg0)) (m ((c : Thread nD τ).loc main_arg2))

theorem w2_h1 (c : Dev nD) : W2 m ρ c (Proc.devRef .tc main_v27) = h1 m c := by
  refine (W2_arr m ρ c 2).trans ?_
  rw [Cert.KernelIdeal.Dense.region0_value (V1 m ρ) c]
  show rowsTimes256 (W1 m ρ c (Proc.devRef .tc main_arg0)) (W1 m ρ c (Proc.devRef .tc main_arg2)) = _
  rw [(w1_arg m ρ c).1, (w1_arg m ρ c).2.1]

/-- Region 0 writes only its result array. -/
theorem w2_keep (c : Dev nD) (b : Ref sig .tc) (hb : ∀ w, Pipeline.arrRef spec0 w ≠ b) :
    W2 m ρ c (Proc.devRef .tc b) = W1 m ρ c (Proc.devRef .tc b) := W2_of_ne m ρ c b hb

/-! ## The second stretch: the first aggregation, the first bias as a row -/

/-- The first layer's aggregated features. -/
abbrev a1 (c : Dev nD) : FArr Ideal S100000x256 :=
  aggregate (srcIdx (edges m c)) (dstIdx (edges m c)) (edgeNorm (srcIdx (edges m c)) (dstIdx (edges m c))) (h1 m c)

set_option maxHeartbeats 4000000 in
theorem w3_a1 (c : Dev nD) : W3 m ρ c (Proc.devRef .tc main_v40) = a1 m c := by
  have e : W3 m ρ c (Proc.devRef .tc main_v40)
      = aggregate (F := Ideal) (W2 m ρ c (Proc.devRef .tc main_v3)) (W2 m ρ c (Proc.devRef .tc main_v6))
          (W2 m ρ c (Proc.devRef .tc main_v26)) (W2 m ρ c (Proc.devRef .tc main_v27)) := by
    show StableHlo.after hostOps1 (W2 m ρ c) (Proc.devRef .tc main_v40) = _
    generalize W2 m ρ c = U
    after_results
    rfl
  rw [e, w2_h1, w2_keep m ρ c main_v3 (by decide), w2_keep m ρ c main_v6 (by decide), w2_keep m ρ c main_v26 (by decide),
    w1_src, w1_dst, w1_nrm] <;> rfl

set_option maxHeartbeats 4000000 in
theorem w3_b1 (c : Dev nD) : W3 m ρ c (Proc.devRef .tc main_v41) = rowOf256 (m ((c : Thread nD τ).loc main_arg3)) := by
  have e : W3 m ρ c (Proc.devRef .tc main_v41)
      = fun i => shapeCast S1x256 (W2 m ρ c (Proc.devRef .tc main_arg3)) shapeCasts_S256_S1x256 i := by
    show StableHlo.after hostOps1 (W2 m ρ c) (Proc.devRef .tc main_v41) = _
    generalize W2 m ρ c = U
    after_results
    rfl
  rw [e, w2_keep m ρ c main_arg3 (by decide), (w1_arg m ρ c).2.2.1]
  exact reshape_row256 _

/-! ## Region 1: the first bias and clip -/

/-- The first layer's output. -/
abbrev r1 (c : Dev nD) : FArr Ideal S100000x256 := biasRelu (a1 m c) (rowOf256 (m ((c : Thread nD τ).loc main_arg3)))

theorem w4_r1 (c : Dev nD) : W4 m ρ c (Proc.devRef .tc main_v42) = r1 m c := by
  refine (W4_arr m ρ c 2).trans ?_
  rw [Cert.KernelIdeal.Clip.region1_value (V3 m ρ) c]
  show biasRelu (W3 m ρ c (Proc.devRef .tc main_v40)) (W3 m ρ c (Proc.devRef .tc main_v41)) = _
  rw [w3_a1, w3_b1]

/-- Region 1 writes only its result array; the second stretch writes only its own results. -/
theorem w4_keep (c : Dev nD) (b : Ref sig .tc) (hb : ∀ w, Pipeline.arrRef spec1 w ≠ b) :
    W4 m ρ c (Proc.devRef .tc b) = W3 m ρ c (Proc.devRef .tc b) := W4_of_ne m ρ c b hb

set_option maxHeartbeats 4000000 in
theorem w3_keep (c : Dev nD) :
    W3 m ρ c (Proc.devRef .tc main_v3) = W2 m ρ c (Proc.devRef .tc main_v3)
    ∧ W3 m ρ c (Proc.devRef .tc main_v6) = W2 m ρ c (Proc.devRef .tc main_v6)
    ∧ W3 m ρ c (Proc.devRef .tc main_v26) = W2 m ρ c (Proc.devRef .tc main_v26)
    ∧ W3 m ρ c (Proc.devRef .tc main_arg4) = W2 m ρ c (Proc.devRef .tc main_arg4)
    ∧ W3 m ρ c (Proc.devRef .tc main_arg5) = W2 m ρ c (Proc.devRef .tc main_arg5)
    ∧ W3 m ρ c (Proc.devRef .tc main_arg6) = W2 m ρ c (Proc.devRef .tc main_arg6)
    ∧ W3 m ρ c (Proc.devRef .tc main_arg7) = W2 m ρ c (Proc.devRef .tc main_arg7) := by
  refine ⟨?_, ?_, ?_, ?_, ?_, ?_, ?_⟩
  · show StableHlo.after hostOps1 (W2 m ρ c) (Proc.devRef .tc main_v3) = _; stretch_keeps hostOps1
  · show StableHlo.after hostOps1 (W2 m ρ c) (Proc.devRef .tc main_v6) = _; stretch_keeps hostOps1
  · show StableHlo.after hostOps1 (W2 m ρ c) (Proc.devRef .tc main_v26) = _; stretch_keeps hostOps1
  · show StableHlo.after hostOps1 (W2 m ρ c) (Proc.devRef .tc main_arg4) = _; stretch_keeps hostOps1
  · show StableHlo.after hostOps1 (W2 m ρ c) (Proc.devRef .tc main_arg5) = _; stretch_keeps hostOps1
  · show StableHlo.after hostOps1 (W2 m ρ c) (Proc.devRef .tc main_arg6) = _; stretch_keeps hostOps1
  · show StableHlo.after hostOps1 (W2 m ρ c) (Proc.devRef .tc main_arg7) = _; stretch_keeps hostOps1

/-- The edges' ends and weights and the later arguments, as region 2 finds them. -/
theorem w4_carried (c : Dev nD) :
    W4 m ρ c (Proc.devRef .tc main_v3) = srcIdx (edges m c)
    ∧ W4 m ρ c (Proc.devRef .tc main_v6) = dstIdx (edges m c)
    ∧ W4 m ρ c (Proc.devRef .tc main_v26) = edgeNorm (srcIdx (edges m c)) (dstIdx (edges m c))
    ∧ W4 m ρ c (Proc.devRef .tc main_arg4) = m ((c : Thread nD τ).loc main_arg4)
    ∧ W4 m ρ c (Proc.devRef .tc main_arg5) = m ((c : Thread nD τ).loc main_arg5)
    ∧ W4 m ρ c (Proc.devRef .tc main_arg6) = m ((c : Thread nD τ).loc main_arg6)
    ∧ W4 m ρ c (Proc.devRef .tc main_arg7) = m ((c : Thread nD τ).loc main_arg7) := by
  obtain ⟨k3, k6, k26, k4, k5, k6', k7⟩ := w3_keep m ρ c
  obtain ⟨-, -, -, a4, a5, a6, a7⟩ := w1_arg m ρ c
  refine ⟨?_, ?_, ?_, ?_, ?_, ?_, ?_⟩
  · rw [w4_keep m ρ c main_v3 (by decide), k3, w2_keep m ρ c main_v3 (by decide), w1_src]
  · rw [w4_keep m ρ c main_v6 (by decide), k6, w2_keep m ρ c main_v6 (by decide), w1_dst]
  · rw [w4_keep m ρ c main_v26 (by decide), k26, w2_keep m ρ c main_v26 (by decide), w1_nrm]
  · rw [w4_keep m ρ c main_arg4 (by decide), k4, w2_keep m ρ c main_arg4 (by decide), a4]
  · rw [w4_keep m ρ c main_arg5 (by decide), k5, w2_keep m ρ c main_arg5 (by decide), a5]
  · rw [w4_keep m ρ c main_arg6 (by decide), k6', w2_keep m ρ c main_arg6 (by decide), a6]
  · rw [w4_keep m ρ c main_arg7 (by decide), k7, w2_keep m ρ c main_arg7 (by decide), a7]

/-! ## Region 2: the second product -/

/-- What the second layer's product holds. -/
abbrev h2 (c : Dev nD) : FArr Ideal S100000x256 := rowsTimes256 (r1 m c) (m ((c : Thread nD τ).loc main_arg4))

theorem w5_h2 (c : Dev nD) : W5 m ρ c (Proc.devRef .tc main_v43) = h2 m c := by
  refine (W5_arr m ρ c 2).trans ?_
  rw [Cert.KernelIdeal.Dense.region2_value (V4 m ρ) c]
  show rowsTimes256 (W4 m ρ c (Proc.devRef .tc main_v42)) (W4 m ρ c (Proc.devRef .tc main_arg4)) = _
  rw [w4_r1, (w4_carried m ρ c).2.2.2.1]

theorem w5_keep (c : Dev nD) (b : Ref sig .tc) (hb : ∀ w, Pipeline.arrRef spec2 w ≠ b) :
    W5 m ρ c (Proc.devRef .tc b) = W4 m ρ c (Proc.devRef .tc b) := W5_of_ne m ρ c b hb

/-! ## The third stretch: the second aggregation, the second bias as a row -/

/-- The second layer's aggregated features. -/
abbrev a2 (c : Dev nD) : FArr Ideal S100000x256 :=
  aggregate (srcIdx (edges m c)) (dstIdx (edges m c)) (edgeNorm (srcIdx (edges m c)) (dstIdx (edges m c))) (h2 m c)

set_option maxHeartbeats 4000000 in
theorem w6_a2 (c : Dev nD) : W6 m ρ c (Proc.devRef .tc main_v56) = a2 m c := by
  have e : W6 m ρ c (Proc.devRef .tc main_v56)
      = aggregate (F := Ideal) (W5 m ρ c (Proc.devRef .tc main_v3)) (W5 m ρ c (Proc.devRef .tc main_v6))
          (W5 m ρ c (Proc.devRef .tc main_v26)) (W5 m ρ c (Proc.devRef .tc main_v43)) := by
    show StableHlo.after hostOps3 (W5 m ρ c) (Proc.devRef .tc main_v56) = _
    generalize W5 m ρ c = U
    after_results
    rfl
  obtain ⟨c3, c6, c26, -⟩ := w4_carried m ρ c
  rw [e, w5_h2, w5_keep m ρ c main_v3 (by decide), w5_keep m ρ c main_v6 (by decide), w5_keep m ρ c main_v26 (by decide), c3, c6, c26] <;> rfl

set_option maxHeartbeats 4000000 in
theorem w6_b2 (c : Dev nD) : W6 m ρ c (Proc.devRef .tc main_v57) = rowOf256 (m ((c : Thread nD τ).loc main_arg5)) := by
  have e : W6 m ρ c (Proc.devRef .tc main_v57)
      = fun i => shapeCast S1x256 (W5 m ρ c (Proc.devRef .tc main_arg5)) shapeCasts_S256_S1x256 i := by
    show StableHlo.after hostOps3 (W5 m ρ c) (Proc.devRef .tc main_v57) = _
    generalize W5 m ρ c = U
    after_results
    rfl
  rw [e, w5_keep m ρ c main_arg5 (by decide), (w4_carried m ρ c).2.2.2.2.1]
  exact reshape_row256 _

set_option maxHeartbeats 4000000 in
theorem w6_keep (c : Dev nD) :
    W6 m ρ c (Proc.devRef .tc main_arg6) = m ((c : Thread nD τ).loc main_arg6)
    ∧ W6 m ρ c (Proc.devRef .tc main_arg7) = m ((c : Thread nD τ).loc main_arg7) := by
  obtain ⟨-, -, -, -, -, a6, a7⟩ := w4_carried m ρ c
  constructor
  · refine Eq.trans ?_ ((w5_keep m ρ c main_arg6 (by decide)).trans a6)
    show StableHlo.after hostOps3 (W5 m ρ c) (Proc.devRef .tc main_arg6) = _
    stretch_keeps hostOps3
  · refine Eq.trans ?_ ((w5_keep m ρ c main_arg7 (by decide)).trans a7)
    show StableHlo.after hostOps3 (W5 m ρ c) (Proc.devRef .tc main_arg7) = _
    stretch_keeps hostOps3

/-! ## Region 3: the second bias and clip -/

/-- The second layer's output. -/
abbrev r2 (c : Dev nD) : FArr Ideal S100000x256 := biasRelu (a2 m c) (rowOf256 (m ((c : Thread nD τ).loc main_arg5)))

theorem w7_r2 (c : Dev nD) : W7 m ρ c (Proc.devRef .tc main_v58) = r2 m c := by
  refine (W7_arr m ρ c 2).trans ?_
  rw [Cert.KernelIdeal.Clip.region3_value (V6 m ρ) c]
  show biasRelu (W6 m ρ c (Proc.devRef .tc main_v56)) (W6 m ρ c (Proc.devRef .tc main_v57)) = _
  rw [w6_a2, w6_b2]

theorem w7_keep (c : Dev nD) (b : Ref sig .tc) (hb : ∀ w, Pipeline.arrRef spec3 w ≠ b) :
    W7 m ρ c (Proc.devRef .tc b) = W6 m ρ c (Proc.devRef .tc b) := W7_of_ne m ρ c b hb

/-! ## The last stretch: the output bias as a row -/

theorem w8_r2 (c : Dev nD) : W8 m ρ c (Proc.devRef .tc main_v58) = r2 m c := by
  refine Eq.trans ?_ (w7_r2 m ρ c)
  show StableHlo.after hostOps4 (W7 m ρ c) (Proc.devRef .tc main_v58) = _
  stretch_keeps hostOps4

theorem w8_wo (c : Dev nD) : W8 m ρ c (Proc.devRef .tc main_arg6) = m ((c : Thread nD τ).loc main_arg6) := by
  refine Eq.trans ?_ ((w7_keep m ρ c main_arg6 (by decide)).trans (w6_keep m ρ c).1)
  show StableHlo.after hostOps4 (W7 m ρ c) (Proc.devRef .tc main_arg6) = _
  stretch_keeps hostOps4

theorem w8_bo (c : Dev nD) : W8 m ρ c (Proc.devRef .tc main_v59) = rowOf64 (m ((c : Thread nD τ).loc main_arg7)) := by
  have e : W8 m ρ c (Proc.devRef .tc main_v59)
      = fun i => shapeCast S1x64 (W7 m ρ c (Proc.devRef .tc main_arg7)) shapeCasts_S64_S1x64 i := by
    show StableHlo.after hostOps4 (W7 m ρ c) (Proc.devRef .tc main_v59) = _
    generalize W7 m ρ c = U
    after_results
    rfl
  rw [e, w7_keep m ρ c main_arg7 (by decide), (w6_keep m ρ c).2]
  exact reshape_row64 _

/-! ## Region 4 and the result -/

/-- After the run the result buffer holds the network's value at the launched arguments. -/
theorem w9_out (c : Dev nD) : W9 m ρ c (Proc.devRef .tc main_v60)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W9_arr m ρ c 3).trans ?_
  rw [Cert.KernelIdeal.Scores.region4_value (V8 m ρ) c]
  show logSoftmaxRows (addRowBias (rowsTimes64 (W8 m ρ c (Proc.devRef .tc main_v58)) (W8 m ρ c (Proc.devRef .tc main_arg6)))
      (W8 m ρ c (Proc.devRef .tc main_v59))) = _
  rw [w8_r2, w8_wo, w8_bo]
  rfl

end Cert.KernelIdeal.Net

end
-- ==== Proof.RefGraph.lean ====
/-
  The edge side of the network, as the kernel program's host operations compute it.
  The 900000 edges are the 800000 given ones followed by one self-loop per node: `srcIdx` and `dstIdx` are their
  source and destination nodes. A negative node number is wrapped once by the number of nodes before it is used to
  gather (`wrapCol`), as jnp indexing does. The in-degree of a node counts the edges arriving there; an edge's weight
  `edgeNorm` is the product of the inverse square roots of the degrees of its two ends; `aggregate h` gathers the
  source node's feature row of every edge, scales it by the edge's weight and adds it into the destination node's row.
-/
import proofs.«146392_j10118942949882_1_alg».proof.ReferenceIdeal
import proofs.«146392_j10118942949882_1_alg».proof.Proof.Gen.ReferenceIdeal
import proofs.«146392_j10118942949882_1_alg».proof.Proof.Spec

noncomputable section

open Idealize.ShloMosaic Idealize.ShloMosaic.TcCoe Idealize.SL.Sem

namespace Cert.ReferenceIdeal.Net

open Cert.ReferenceIdeal Cert.ReferenceIdeal.Gen

variable {F : FTy → Type} [FloatOps F]

/-- An integer array of the given shape. -/
abbrev IArr (F : FTy → Type) (S : Shape) := (⟨S, .i32⟩ : BufTy).Contents (Elt F)
/-- A float array of the given shape. -/
abbrev FArr (F : FTy → Type) (S : Shape) := (⟨S, .f32⟩ : BufTy).Contents (Elt F)

/-- The source node of every edge: row 0 of the edge list, then the nodes themselves (the self-loops). -/
def srcIdx (ei : IArr F S2x800000) : IArr F S900000 :=
  concatenate S900000 0 [⟨S800000, shapeCast S800000 (extractStridedSlice S1x800000 ![0, 0] ei slices_S2x800000_S1x800000_0_0) shapeCasts_S1x800000_S800000⟩, ⟨S100000, iotaInDim S100000 32 0⟩] concatenates_S800000_S100000_S900000_d0

/-- The destination node of every edge: row 1 of the edge list, then the nodes themselves. -/
def dstIdx (ei : IArr F S2x800000) : IArr F S900000 :=
  concatenate S900000 0 [⟨S800000, shapeCast S800000 (extractStridedSlice S1x800000 ![1, 0] ei slices_S2x800000_S1x800000_1_0) shapeCasts_S1x800000_S800000⟩, ⟨S100000, iotaInDim S100000 32 0⟩] concatenates_S800000_S100000_S900000_d0

/-- Node numbers as a column of gather indices, a negative one wrapped once by the number of nodes. -/
def wrapCol (v : IArr F S900000) : IArr F S900000x1 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 100000#32))) v)

/-- The inverse square root of every node's in-degree (each edge adds one at its destination). -/
def degInvSqrt (dst : IArr F S900000) : FArr F S100000 :=
  Host.rsqrt (Host.scatterAdd scatter_S100000_S900000x1_S900000_n_0_0_1
    (broadcastInDim S100000 ![] bcast_S_S100000 (constant S_ .f32 0x00000000#32))
    (broadcastInDim S900000x1 ![0] bcast_S900000_S900000x1_0 dst)
    (broadcastInDim S900000 ![] bcast_S_S900000 (constant S_ .f32 0x3F800000#32)))

/-- An edge's weight from a per-node factor: the factor at its source times the factor at its destination. -/
def edgeNormOf (dis : FArr F S100000) (src dst : IArr F S900000) : FArr F S900000 :=
  mulf (Host.gather gather_S100000_S900000x1_S900000_n_0_n_n_0_1_1 dis (wrapCol src))
    (Host.gather gather_S100000_S900000x1_S900000_n_0_n_n_0_1_1 dis (wrapCol dst))

/-- The symmetric normalisation weight of every edge. -/
def edgeNorm (src dst : IArr F S900000) : FArr F S900000 := edgeNormOf (degInvSqrt dst) src dst

/-- Gather each edge's source row, scale by the edge's weight, add into the destination row. -/
def aggregate (src dst : IArr F S900000) (nrm : FArr F S900000) (h : FArr F S100000x256) : FArr F S100000x256 :=
  Host.scatterAdd scatter_S100000x256_S900000x1_S900000x256_1_0_0_1
    (broadcastInDim S100000x256 ![] bcast_S_S100000x256 (constant S_ .f32 0x00000000#32))
    (broadcastInDim S900000x1 ![0] bcast_S900000_S900000x1_0 dst)
    (mulf (Host.gather gather_S100000x256_S900000x1_S900000x256_1_0_n_n_0_1_1256 h (wrapCol src))
      (broadcastInDim S900000x256 ![0, 1] bcast_S900000x1_S900000x256_0_1 (broadcastInDim S900000x1 ![0] bcast_S900000_S900000x1_0 nrm)))

/-- One graph-convolution layer over the extended reals: multiply by the weights, aggregate over the edges, add the
    bias and clip at zero. -/
def layer (ei : IArr Ideal S2x800000) (x : FArr Ideal S100000x256) (w : FArr Ideal S256x256) (b : FArr Ideal S256) : FArr Ideal S100000x256 :=
  Cert.Gcn.biasRelu (aggregate (srcIdx ei) (dstIdx ei) (edgeNorm (srcIdx ei) (dstIdx ei)) (Cert.Gcn.rowsTimes256 x w)) (Cert.Gcn.rowOf256 b)

/-- The whole network as one function of the eight argument arrays: two layers, the output product with its bias, and
    the logarithm of the softmax along each row. -/
def net (x : FArr Ideal S100000x256) (ei : IArr Ideal S2x800000) (w1 : FArr Ideal S256x256) (b1 : FArr Ideal S256)
    (w2 : FArr Ideal S256x256) (b2 : FArr Ideal S256) (wo : FArr Ideal S256x64) (bo : FArr Ideal S64) : FArr Ideal S100000x64 :=
  Cert.Gcn.logSoftmaxRows (Cert.Gcn.addRowBias (Cert.Gcn.rowsTimes64 (layer ei (layer ei x w1 b1) w2 b2) wo) (Cert.Gcn.rowOf64 bo))

end Cert.ReferenceIdeal.Net

end
-- ==== Proof.RefOps.lean ====
import proofs.«146392_j10118942949882_1_alg».proof.ReferenceIdeal
import proofs.«146392_j10118942949882_1_alg».proof.Proof.Gen.ReferenceIdeal
import proofs.«146392_j10118942949882_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem

namespace Cert.ReferenceIdeal.Dense

open Cert.ReferenceIdeal Cert.ReferenceIdeal.Gen Idealize.ShloMosaic.ValueIdx

/-- The left operand's index at output (r, c) and contraction coordinate k has row r … -/
private theorem dot256_lhs_row (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
/-- … and column k. -/
private theorem dot256_lhs_col (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
/-- The right operand's index there has row k … -/
private theorem dot256_rhs_row (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
/-- … and column c. -/
private theorem dot256_rhs_col (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl

/-- jnp's product of the features with a square weight matrix is the matrix product. -/
theorem dot256_eq (x : FVec Ideal S100000x256 .f32) (w : FVec Ideal S256x256 .f32) :
    Host.dotGeneral (F := Ideal) dot_S100000x256_S256x256_S100000x256_1_0_0_1_n_n none x w = Cert.Gcn.rowsTimes256 x w := by
  funext i
  unfold Cert.Gcn.rowsTimes256
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx i ((ValueIdx.contrEquiv1 dot_S100000x256_S256x256_S100000x256_1_0_0_1_n_n 256 rfl rfl).symm k) = ix2 (n0 := 100000) (n1 := 256) (i 0) k := funext fun a => Fin.ext (by
    match a with
    | ⟨0, _⟩ => exact dot256_lhs_row _ _
    | ⟨1, _⟩ => exact (dot256_lhs_col _ _).trans hk)
  have er : dot_S100000x256_S256x256_S100000x256_1_0_0_1_n_n.rhsIdx i ((ValueIdx.contrEquiv1 dot_S100000x256_S256x256_S100000x256_1_0_0_1_n_n 256 rfl rfl).symm k) = ix2 (n0 := 256) (n1 := 256) k (i 1) := funext fun a => Fin.ext (by
    match a with
    | ⟨0, _⟩ => exact (dot256_rhs_row _ _).trans hk
    | ⟨1, _⟩ => exact dot256_rhs_col _ _)
  rw [el, er]

/-- The left operand's index at output (r, c) and contraction coordinate k has row r … -/
private theorem dot64_lhs_row (i : S100000x64.Idx) (q : dot_S100000x256_S256x64_S100000x64_1_0_0_1_n_n.contr.Idx) :
    (dot_S100000x256_S256x64_S100000x64_1_0_0_1_n_n.lhsIdx i q 0).val = (i 0).val := by
  unfold DotDims.lhsIdx
  rw [dif_neg (show ¬(0 : Fin S100000x256.rank) ∈ dot_S100000x256_S256x64_S100000x64_1_0_0_1_n_n.lhsBatch by decide), dif_pos (show (0 : Fin S100000x256.rank) ∈ dot_S100000x256_S256x64_S100000x64_1_0_0_1_n_n.lhsNonContracting by decide)]
  rfl
/-- … and column k. -/
private theorem dot64_lhs_col (i : S100000x64.Idx) (q : dot_S100000x256_S256x64_S100000x64_1_0_0_1_n_n.contr.Idx) :
    (dot_S100000x256_S256x64_S100000x64_1_0_0_1_n_n.lhsIdx i q 1).val = (q ⟨0, by decide⟩).val :=
  dot_S100000x256_S256x64_S100000x64_1_0_0_1_n_n.lhsIdx_val_of_single rfl i q
/-- The right operand's index there has row k … -/
private theorem dot64_rhs_row (i : S100000x64.Idx) (q : dot_S100000x256_S256x64_S100000x64_1_0_0_1_n_n.contr.Idx) :
    (dot_S100000x256_S256x64_S100000x64_1_0_0_1_n_n.rhsIdx i q 0).val = (q ⟨0, by decide⟩).val :=
  dot_S100000x256_S256x64_S100000x64_1_0_0_1_n_n.rhsIdx_val_of_single rfl i q
/-- … and column c. -/
private theorem dot64_rhs_col (i : S100000x64.Idx) (q : dot_S100000x256_S256x64_S100000x64_1_0_0_1_n_n.contr.Idx) :
    (dot_S100000x256_S256x64_S100000x64_1_0_0_1_n_n.rhsIdx i q 1).val = (i 1).val := by
  unfold DotDims.rhsIdx
  rw [dif_neg (show ¬(1 : Fin S256x64.rank) ∈ dot_S100000x256_S256x64_S100000x64_1_0_0_1_n_n.rhsBatch by decide), dif_pos (show (1 : Fin S256x64.rank) ∈ dot_S100000x256_S256x64_S100000x64_1_0_0_1_n_n.rhsNonContracting by decide)]
  rfl

/-- jnp's product of the features with the output weights is the matrix product. -/
theorem dot64_eq (x : FVec Ideal S100000x256 .f32) (w : FVec Ideal S256x64 .f32) :
    Host.dotGeneral (F := Ideal) dot_S100000x256_S256x64_S100000x64_1_0_0_1_n_n none x w = Cert.Gcn.rowsTimes64 x w := by
  funext i
  unfold Cert.Gcn.rowsTimes64
  simp only [Host.dotGeneral]
  rw [Ideal.dotGeneral_apply, ← Equiv.sum_comp (ValueIdx.contrEquiv1 dot_S100000x256_S256x64_S100000x64_1_0_0_1_n_n 256 rfl rfl).symm]
  refine Finset.sum_congr rfl fun k _ => ?_
  have hk := ValueIdx.contrEquiv1_symm_val dot_S100000x256_S256x64_S100000x64_1_0_0_1_n_n 256 rfl rfl k
  have el : dot_S100000x256_S256x64_S100000x64_1_0_0_1_n_n.lhsIdx i ((ValueIdx.contrEquiv1 dot_S100000x256_S256x64_S100000x64_1_0_0_1_n_n 256 rfl rfl).symm k) = ix2 (n0 := 100000) (n1 := 256) (i 0) k := funext fun a => Fin.ext (by
    match a with
    | ⟨0, _⟩ => exact dot64_lhs_row _ _
    | ⟨1, _⟩ => exact (dot64_lhs_col _ _).trans hk)
  have er : dot_S100000x256_S256x64_S100000x64_1_0_0_1_n_n.rhsIdx i ((ValueIdx.contrEquiv1 dot_S100000x256_S256x64_S100000x64_1_0_0_1_n_n 256 rfl rfl).symm k) = ix2 (n0 := 256) (n1 := 64) k (i 1) := funext fun a => Fin.ext (by
    match a with
    | ⟨0, _⟩ => exact (dot64_rhs_row _ _).trans hk
    | ⟨1, _⟩ => exact dot64_rhs_col _ _)
  rw [el, er]

/-- A row vector [1, 256] spread over the 100000 rows reads, at (r, c), its entry (0, c). -/
private theorem spreadRow256_apply (y : FVec Ideal S1x256 .f32) (i : S100000x256.Idx) :
    broadcastInDim S100000x256 ![0, 1] bcast_S1x256_S100000x256_0_1 y i = y (ix2 (n0 := 1) (n1 := 256) 0 (i 1)) :=
  broadcastInDim_apply _ bcast_S1x256_S100000x256_0_1 y i (ix2 (n0 := 1) (n1 := 256) 0 (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])

/-- A vector of 256 laid out as a [1, 256] row reads, at (0, c), its entry c. -/
private theorem asRow256_apply (b : FVec Ideal S256 .f32) (i : S1x256.Idx) :
    broadcastInDim S1x256 ![1] bcast_S256_S1x256_1 b i = b (ix1 (n := 256) (i 1)) :=
  broadcastInDim_apply _ bcast_S256_S1x256_1 b i (ix1 (n := 256) (i 1)) (fun a => match a with
    | ⟨0, _⟩ => by show (i 1).val = if (256 : Nat) = 1 then 0 else (i 1).val; rw [if_neg (by decide)])

/-- A scalar spread over a [100000, 256] array reads the scalar everywhere. -/
private theorem spreadScalar256_apply (y : FVec Ideal S_ .f32) (i : S100000x256.Idx) :
    broadcastInDim S100000x256 ![] bcast_S_S100000x256 y i = y ix0 :=
  broadcastInDim_apply _ bcast_S_S100000x256 y i ix0 (fun a => a.elim0)

/-- jnp's "add the broadcast bias, then relu" is `biasRelu` with the bias laid out as a row. -/
theorem biasRelu_eq (a : FVec Ideal S100000x256 .f32) (b : FVec Ideal S256 .f32) :
    maximumf (F := Ideal) (addf (F := Ideal) a (broadcastInDim S100000x256 ![0, 1] bcast_S1x256_S100000x256_0_1 (broadcastInDim S1x256 ![1] bcast_S256_S1x256_1 b)))
        (broadcastInDim S100000x256 ![] bcast_S_S100000x256 (constant (F := Ideal) S_ .f32 0x00000000#32))
      = Cert.Gcn.biasRelu a (Cert.Gcn.rowOf256 b) := by
  funext i
  rw [maximumf_apply, addf_apply, spreadRow256_apply, asRow256_apply, spreadScalar256_apply, constant_apply,
    Ideal.ofBits_zero_f32]
  rfl

/-- A row vector [1, 64] spread over the 100000 rows reads, at (r, c), its entry (0, c). -/
private theorem spreadRow64_apply (y : FVec Ideal S1x64 .f32) (i : S100000x64.Idx) :
    broadcastInDim S100000x64 ![0, 1] bcast_S1x64_S100000x64_0_1 y i = y (ix2 (n0 := 1) (n1 := 64) 0 (i 1)) :=
  broadcastInDim_apply _ bcast_S1x64_S100000x64_0_1 y i (ix2 (n0 := 1) (n1 := 64) 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A vector of 64 laid out as a [1, 64] row reads, at (0, c), its entry c. -/
private theorem asRow64_apply (b : FVec Ideal S64 .f32) (i : S1x64.Idx) :
    broadcastInDim S1x64 ![1] bcast_S64_S1x64_1 b i = b (ix1 (n := 64) (i 1)) :=
  broadcastInDim_apply _ bcast_S64_S1x64_1 b i (ix1 (n := 64) (i 1)) (fun a => match a with
    | ⟨0, _⟩ => by show (i 1).val = if (64 : Nat) = 1 then 0 else (i 1).val; rw [if_neg (by decide)])

/-- jnp's "add the broadcast output bias" is `addRowBias` with the bias laid out as a row. -/
theorem addRowBias_eq (y : FVec Ideal S100000x64 .f32) (b : FVec Ideal S64 .f32) :
    addf (F := Ideal) (φ := .f32) y (broadcastInDim S100000x64 ![0, 1] bcast_S1x64_S100000x64_0_1 (broadcastInDim S1x64 ![1] bcast_S64_S1x64_1 b))
      = Cert.Gcn.addRowBias y (Cert.Gcn.rowOf64 b) := by
  funext i
  rw [addf_apply, spreadRow64_apply, asRow64_apply]
  rfl

/-- Row r of the scores with the column k put in: the index (r, k). -/
private theorem insertCol_eq (h : S100000x64.Reduces [1] S100000) (r : Fin 100000) (k : Fin 64) :
    h.lift (ix1 (n := 100000) r) k = ix2 (n0 := 100000) (n1 := 64) r k :=
  funext fun a => Fin.ext (by match a with | ⟨0, _⟩ => rfl | ⟨1, _⟩ => rfl)

/-- The single-precision word of -∞ is the least extended real. -/
private theorem ofBits_negInf_f32 : Ideal.ofBits .f32 0xFF800000#32 = ⊥ := by simp [Ideal.ofBits, Ideal.ieee]

/-- A scalar spread over 100000 entries reads the scalar everywhere. -/
private theorem spreadScalar_apply (y : FVec Ideal S_ .f32) (j : S100000.Idx) :
    broadcastInDim S100000 ![] bcast_S_S100000 y j = y ix0 :=
  broadcastInDim_apply _ bcast_S_S100000 y j ix0 (fun a => a.elim0)

/-- Row r's maximum as jnp takes it: the fold of max over the row from -∞, and once more the larger of -∞ and that. -/
private theorem rowMax_apply (z : FVec Ideal S100000x64 .f32) (r : Fin 100000) :
    maximumf (F := Ideal) (broadcastInDim S100000 ![] bcast_S_S100000 (constant (F := Ideal) S_ .f32 0xFF800000#32))
        (Host.reduce (FloatOps.maximumf (F := Ideal) (φ := .f32)) z (constant (F := Ideal) S_ .f32 0xFF800000#32) reducesTo_S100000x64_S100000_d1 h_S_)
        (ix1 (n := 100000) r)
      = Cert.Gcn.rowMax z r := by
  have h : S100000x64.Reduces [1] S100000 := by decide
  rw [maximumf_apply, spreadScalar_apply, constant_apply, ofBits_negInf_f32, bot_sup_eq,
    Host.reduce_eq_fold_single _ z _ reducesTo_S100000x64_S100000_d1 h h_S_, constant_apply, ofBits_negInf_f32]
  unfold Cert.Gcn.rowMax
  have e : z ∘ h.lift (ix1 (n := 100000) r) = fun k : Fin 64 => z (ix2 (n0 := 100000) (n1 := 64) r k) :=
    funext fun k => congrArg z (insertCol_eq h r k)
  rw [e]
  rfl

/-- A vector of 100000 laid out as a [100000, 1] column reads, at (r, 0), its entry r. -/
private theorem asCol_apply (y : FVec Ideal S100000 .f32) (r : Fin 100000) (q : Fin 1) :
    broadcastInDim S100000x1 ![0] bcast_S100000_S100000x1_0 y (ix2 (n0 := 100000) (n1 := 1) r q) = y (ix1 (n := 100000) r) :=
  broadcastInDim_apply _ bcast_S100000_S100000x1_0 y (ix2 (n0 := 100000) (n1 := 1) r q) (ix1 (n := 100000) r) (fun a => match a with
    | ⟨0, _⟩ => by show r.val = if (100000 : Nat) = 1 then 0 else r.val; rw [if_neg (by decide)])

/-- A column [100000, 1] spread over the 64 columns reads, at (r, c), its entry (r, 0). -/
private theorem spreadCol_apply (y : FVec Ideal S100000x1 .f32) (r : Fin 100000) (c : Fin 64) :
    broadcastInDim S100000x64 ![0, 1] bcast_S100000x1_S100000x64_0_1 y (ix2 (n0 := 100000) (n1 := 64) r c)
      = y (ix2 (n0 := 100000) (n1 := 1) r 0) :=
  broadcastInDim_apply _ bcast_S100000x1_S100000x64_0_1 y (ix2 (n0 := 100000) (n1 := 64) r c) (ix2 (n0 := 100000) (n1 := 1) r 0) (fun a => match a with
    | ⟨0, _⟩ => by show r.val = if (100000 : Nat) = 1 then 0 else r.val; rw [if_neg (by decide)]
    | ⟨1, _⟩ => by show 0 = if (1 : Nat) = 1 then 0 else c.val; rw [if_pos rfl])

/-- The host's logarithm of an array reads the logarithm of the entry. -/
private theorem hostLog_apply {s : Shape} (x : FVec Ideal s .f32) (j : s.Idx) : Host.log (F := Ideal) x j = Ideal.log (x j) := rfl
/-- The host's exponential of an array reads the exponential of the entry. -/
private theorem hostExp_apply {s : Shape} (x : FVec Ideal s .f32) (j : s.Idx) : Host.exp (F := Ideal) x j = Ideal.exp (x j) := rfl

/-- jnp's sum of row r from zero is the sum of the row's 64 entries. -/
private theorem rowSum_apply (y : FVec Ideal S100000x64 .f32) (r : Fin 100000) :
    Host.reduceAdd (F := Ideal) y (constant (F := Ideal) S_ .f32 0x00000000#32) reducesTo_S100000x64_S100000_d1 h_S_ (ix1 (n := 100000) r)
      = ∑ k : Fin 64, y (ix2 (n0 := 100000) (n1 := 64) r k) := by
  have h : S100000x64.Reduces [1] S100000 := by decide
  simp only [Host.reduceAdd, Ideal.hostReduceAdd_def]
  rw [Ideal.hostReduceAdd_single reducesTo_S100000x64_S100000_d1 h, constant_apply, Ideal.ofBits_zero_f32, zero_add]
  exact Finset.sum_congr rfl fun k _ => congrArg y (insertCol_eq h r k)

/-- The scores shifted by their row's maximum, at (r, k). -/
private theorem shifted_apply (z : FVec Ideal S100000x64 .f32) (r : Fin 100000) (k : Fin 64) :
    subf (F := Ideal) z (broadcastInDim S100000x64 ![0, 1] bcast_S100000x1_S100000x64_0_1 (broadcastInDim S100000x1 ![0] bcast_S100000_S100000x1_0
        (maximumf (F := Ideal) (broadcastInDim S100000 ![] bcast_S_S100000 (constant (F := Ideal) S_ .f32 0xFF800000#32))
          (Host.reduce (FloatOps.maximumf (F := Ideal) (φ := .f32)) z (constant (F := Ideal) S_ .f32 0xFF800000#32) reducesTo_S100000x64_S100000_d1 h_S_)))) (ix2 (n0 := 100000) (n1 := 64) r k)
      = z (ix2 (n0 := 100000) (n1 := 64) r k) - Cert.Gcn.rowMax z r := by
  rw [subf_apply, spreadCol_apply, asCol_apply, rowMax_apply]

/-- The exponential of the shifted scores, at (r, k). -/
private theorem expShifted_apply (z : FVec Ideal S100000x64 .f32) (r : Fin 100000) (k : Fin 64) :
    Host.exp (F := Ideal) (subf (F := Ideal) z (broadcastInDim S100000x64 ![0, 1] bcast_S100000x1_S100000x64_0_1 (broadcastInDim S100000x1 ![0] bcast_S100000_S100000x1_0
        (maximumf (F := Ideal) (broadcastInDim S100000 ![] bcast_S_S100000 (constant (F := Ideal) S_ .f32 0xFF800000#32))
          (Host.reduce (FloatOps.maximumf (F := Ideal) (φ := .f32)) z (constant (F := Ideal) S_ .f32 0xFF800000#32) reducesTo_S100000x64_S100000_d1 h_S_))))) (ix2 (n0 := 100000) (n1 := 64) r k)
      = Ideal.exp (z (ix2 (n0 := 100000) (n1 := 64) r k) - Cert.Gcn.rowMax z r) := by
  rw [hostExp_apply, shifted_apply]

/-- jax.nn.log_softmax along the rows, as jax lowers it (row maximum with initial value -∞, shift, exponentiate, sum,
    logarithm, subtract), is `logSoftmaxRows`. -/
theorem logSoftmax_eq (z : FVec Ideal S100000x64 .f32) :
    subf (F := Ideal) (subf (F := Ideal) z (broadcastInDim S100000x64 ![0, 1] bcast_S100000x1_S100000x64_0_1 (broadcastInDim S100000x1 ![0] bcast_S100000_S100000x1_0
        (maximumf (F := Ideal) (broadcastInDim S100000 ![] bcast_S_S100000 (constant (F := Ideal) S_ .f32 0xFF800000#32))
          (Host.reduce (FloatOps.maximumf (F := Ideal) (φ := .f32)) z (constant (F := Ideal) S_ .f32 0xFF800000#32) reducesTo_S100000x64_S100000_d1 h_S_)))))
      (broadcastInDim S100000x64 ![0, 1] bcast_S100000x1_S100000x64_0_1 (Host.log (F := Ideal) (broadcastInDim S100000x1 ![0] bcast_S100000_S100000x1_0
        (Host.reduceAdd (F := Ideal) (Host.exp (F := Ideal) (subf (F := Ideal) z (broadcastInDim S100000x64 ![0, 1] bcast_S100000x1_S100000x64_0_1 (broadcastInDim S100000x1 ![0] bcast_S100000_S100000x1_0
          (maximumf (F := Ideal) (broadcastInDim S100000 ![] bcast_S_S100000 (constant (F := Ideal) S_ .f32 0xFF800000#32))
            (Host.reduce (FloatOps.maximumf (F := Ideal) (φ := .f32)) z (constant (F := Ideal) S_ .f32 0xFF800000#32) reducesTo_S100000x64_S100000_d1 h_S_))))))
          (constant (F := Ideal) S_ .f32 0x00000000#32) reducesTo_S100000x64_S100000_d1 h_S_))))
      = Cert.Gcn.logSoftmaxRows z := by
  funext i
  obtain ⟨r, c, rfl⟩ : ∃ (r : Fin 100000) (c : Fin 64), i = ix2 r c := ⟨i 0, i 1, eq_ix2 i⟩
  rw [subf_apply, shifted_apply, spreadCol_apply, hostLog_apply, asCol_apply, rowSum_apply]
  rw [Finset.sum_congr rfl fun k _ => expShifted_apply z r k]
  rfl

end Cert.ReferenceIdeal.Dense

end
-- ==== Proof.RefThread.lean ====
import proofs.«146392_j10118942949882_1_alg».proof.Proof.RefRun
import proofs.«146392_j10118942949882_1_alg».proof.Proof.RefGraph
import proofs.«146392_j10118942949882_1_alg».proof.Proof.RefOps
import proofs.«146392_j10118942949882_1_alg».proof.Proof.Spec
import Idealize.ShloMosaic.Lib.Pipeline.Frame
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Net

open Cert.ReferenceIdeal Cert.ReferenceIdeal.Gen Cert.ReferenceIdeal.ValueP Cert.ReferenceIdeal.Dense Cert.Gcn

section Chunks

variable {F : FTy → Type} [FloatOps F]

/-! ## The reference's dense stages as it spells them -/

/-- jnp's "add the broadcast bias, then relu" on a feature array. -/
def biasReluRaw (a : FArr F S100000x256) (b : FArr F S256) : FArr F S100000x256 :=
  maximumf (addf a (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- The row maximum as jax.nn.log_softmax takes it (initial value -∞), spread back over the row. -/
def rowMaxRaw (z : FArr F S100000x64) : FArr F S100000x64 :=
  broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf z (constant S_ .f32 0xFF800000#32) reducesTo_S100000x64_S100000_d1 h_S_)))

/-- jax.nn.log_softmax along the rows, as jax lowers it. -/
def logSoftmaxRaw (z : FArr F S100000x64) : FArr F S100000x64 :=
  subf (subf z (rowMaxRaw z))
    (broadcastInDim S100000x64 ![0, 1] bcast_S100000x1_S100000x64_0_1 (Host.log (broadcastInDim S100000x1 ![0] bcast_S100000_S100000x1_0
      (Host.reduceAdd (Host.exp (subf z (rowMaxRaw z))) (constant S_ .f32 0x00000000#32) reducesTo_S100000x64_S100000_d1 h_S_))))

/-- jnp's "add the broadcast output bias". -/
def addBiasRaw (y : FArr F S100000x64) (b : FArr F S64) : FArr F S100000x64 :=
  addf y (broadcastInDim S100000x64 ![0, 1] bcast_S1x64_S100000x64_0_1 (broadcastInDim S1x64 ![1] bcast_S64_S1x64_1 b))

/-- Carrying a value to an equal type and back gives the value. -/
theorem cast_cast_back {A B : Type} (h : A = B) (h' : B = A) (v : A) : cast h' (cast h v) = v := by
  subst h; rfl

/-! ## The operation list in five consecutive pieces -/

/-- Edge ends, degrees, the first product and the edge weights. -/
abbrev opsA : List (HloOp τ sig (Elt F)) := (ops (F := F)).take 34
abbrev restA : List (HloOp τ sig (Elt F)) := (ops (F := F)).drop 34
/-- The first aggregation, bias, clip, and the second product. -/
abbrev opsB : List (HloOp τ sig (Elt F)) := (restA (F := F)).take 23
abbrev restB : List (HloOp τ sig (Elt F)) := (restA (F := F)).drop 23
/-- The edge weights once more. -/
abbrev opsC1 : List (HloOp τ sig (Elt F)) := (restB (F := F)).take 19
abbrev restC1 : List (HloOp τ sig (Elt F)) := (restB (F := F)).drop 19
/-- The second aggregation, bias, clip, the output product and its bias. -/
abbrev opsC2 : List (HloOp τ sig (Elt F)) := (restC1 (F := F)).take 26
/-- The logarithm of the softmax. -/
abbrev opsD : List (HloOp τ sig (Elt F)) := (restC1 (F := F)).drop 26

set_option maxHeartbeats 400000 in
/-- The run's fold, piece after piece. -/
theorem after_ops (U : Valuation τ sig (Elt F)) :
    after (ops (F := F)) U = after opsD (after opsC2 (after opsC1 (after opsB (after opsA U)))) := by
  have e : ops (F := F) = opsA ++ (opsB ++ (opsC1 ++ (opsC2 ++ opsD))) := by
    show ops (F := F) = List.take 34 ops ++ (List.take 23 restA ++ (List.take 19 restB ++ (List.take 26 restC1 ++ List.drop 26 restC1)))
    rw [List.take_append_drop 26 (restC1 (F := F))]
    show ops (F := F) = List.take 34 ops ++ (List.take 23 restA ++ (List.take 19 restB ++ List.drop 19 restB))
    rw [List.take_append_drop 19 (restB (F := F))]
    show ops (F := F) = List.take 34 ops ++ (List.take 23 restA ++ List.drop 23 restA)
    rw [List.take_append_drop 23 (restA (F := F))]
    exact (List.take_append_drop 34 (ops (F := F))).symm
  generalize hA : opsA (F := F) = lA at e
  generalize hB : opsB (F := F) = lB at e
  generalize hC1 : opsC1 (F := F) = lC1 at e
  generalize hC2 : opsC2 (F := F) = lC2 at e
  generalize hD : opsD (F := F) = lD at e
  rw [e, StableHlo.after_append, StableHlo.after_append, StableHlo.after_append, StableHlo.after_append]

/-! ## The first piece: the edges' ends, the degrees, the first product, the edges' weights -/

set_option maxHeartbeats 4000000 in
theorem A_src (U : Valuation τ sig (Elt F)) : after opsA U (Proc.devRef .tc main_v3) = srcIdx (U (Proc.devRef .tc main_arg1)) := by
  simp only [opsA, ops, List.take_succ_cons, List.take_zero, List.drop_succ_cons, List.drop_zero]
  after_results <;> (try simp only [TRef.ofBuf, TRef.toBuf, cast_cast_back]) <;> rfl

set_option maxHeartbeats 4000000 in
theorem A_dst (U : Valuation τ sig (Elt F)) : after opsA U (Proc.devRef .tc main_v6) = dstIdx (U (Proc.devRef .tc main_arg1)) := by
  simp only [opsA, ops, List.take_succ_cons, List.take_zero, List.drop_succ_cons, List.drop_zero]
  after_results <;> (try simp only [TRef.ofBuf, TRef.toBuf, cast_cast_back]) <;> rfl

set_option maxHeartbeats 4000000 in
theorem A_dis (U : Valuation τ sig (Elt F)) : after opsA U (Proc.devRef .tc main_v11) = degInvSqrt (dstIdx (U (Proc.devRef .tc main_arg1))) := by
  simp only [opsA, ops, List.take_succ_cons, List.take_zero, List.drop_succ_cons, List.drop_zero]
  after_results <;> (try simp only [TRef.ofBuf, TRef.toBuf, cast_cast_back]) <;> rfl

set_option maxHeartbeats 4000000 in
theorem A_nrm (U : Valuation τ sig (Elt F)) : after opsA U (Proc.devRef .tc main_v27)
    = edgeNorm (srcIdx (U (Proc.devRef .tc main_arg1))) (dstIdx (U (Proc.devRef .tc main_arg1))) := by
  simp only [opsA, ops, List.take_succ_cons, List.take_zero, List.drop_succ_cons, List.drop_zero]
  after_results <;> (try simp only [TRef.ofBuf, TRef.toBuf, cast_cast_back]) <;> rfl

set_option maxHeartbeats 4000000 in
theorem A_h (U : Valuation τ sig (Elt F)) : after opsA U (Proc.devRef .tc main_v12)
    = Host.dotGeneral dot_S100000x256_S256x256_S100000x256_1_0_0_1_n_n none (U (Proc.devRef .tc main_arg0)) (U (Proc.devRef .tc main_arg2)) := by
  simp only [opsA, ops, List.take_succ_cons, List.take_zero, List.drop_succ_cons, List.drop_zero]
  after_results <;> (try simp only [TRef.ofBuf, TRef.toBuf, cast_cast_back]) <;> rfl

set_option maxHeartbeats 4000000 in
theorem A_keep (U : Valuation τ sig (Elt F)) :
    after opsA U (Proc.devRef .tc main_arg3) = U (Proc.devRef .tc main_arg3)
    ∧ after opsA U (Proc.devRef .tc main_arg4) = U (Proc.devRef .tc main_arg4)
    ∧ after opsA U (Proc.devRef .tc main_arg5) = U (Proc.devRef .tc main_arg5)
    ∧ after opsA U (Proc.devRef .tc main_arg6) = U (Proc.devRef .tc main_arg6)
    ∧ after opsA U (Proc.devRef .tc main_arg7) = U (Proc.devRef .tc main_arg7) := by
  simp only [opsA, ops, List.take_succ_cons, List.take_zero, List.drop_succ_cons, List.drop_zero]
  refine ⟨?_, ?_, ?_, ?_, ?_⟩ <;> after_results <;> (try simp only [TRef.ofBuf, TRef.toBuf, cast_cast_back]) <;> rfl

/-! ## The second piece: the first layer's aggregation, bias and clip; the second product -/

set_option maxHeartbeats 4000000 in
theorem B_h (U : Valuation τ sig (Elt F)) : after opsB U (Proc.devRef .tc main_v45)
    = Host.dotGeneral dot_S100000x256_S256x256_S100000x256_1_0_0_1_n_n none
        (biasReluRaw (aggregate (U (Proc.devRef .tc main_v3)) (U (Proc.devRef .tc main_v6)) (U (Proc.devRef .tc main_v27)) (U (Proc.devRef .tc main_v12)))
          (U (Proc.devRef .tc main_arg3)))
        (U (Proc.devRef .tc main_arg4)) := by
  simp only [opsB, restA, ops, List.take_succ_cons, List.take_zero, List.drop_succ_cons, List.drop_zero]
  after_results <;> (try simp only [TRef.ofBuf, TRef.toBuf, cast_cast_back]) <;> rfl

set_option maxHeartbeats 4000000 in
theorem B_keep (U : Valuation τ sig (Elt F)) :
    after opsB U (Proc.devRef .tc main_v3) = U (Proc.devRef .tc main_v3)
    ∧ after opsB U (Proc.devRef .tc main_v6) = U (Proc.devRef .tc main_v6)
    ∧ after opsB U (Proc.devRef .tc main_v11) = U (Proc.devRef .tc main_v11)
    ∧ after opsB U (Proc.devRef .tc main_arg5) = U (Proc.devRef .tc main_arg5)
    ∧ after opsB U (Proc.devRef .tc main_arg6) = U (Proc.devRef .tc main_arg6)
    ∧ after opsB U (Proc.devRef .tc main_arg7) = U (Proc.devRef .tc main_arg7) := by
  simp only [opsB, restA, ops, List.take_succ_cons, List.take_zero, List.drop_succ_cons, List.drop_zero]
  refine ⟨?_, ?_, ?_, ?_, ?_, ?_⟩ <;> after_results <;> (try simp only [TRef.ofBuf, TRef.toBuf, cast_cast_back]) <;> rfl

/-! ## The third piece: the edges' weights once more -/

set_option maxHeartbeats 4000000 in
theorem C1_nrm (U : Valuation τ sig (Elt F)) : after opsC1 U (Proc.devRef .tc main_v60)
    = edgeNormOf (U (Proc.devRef .tc main_v11)) (U (Proc.devRef .tc main_v3)) (U (Proc.devRef .tc main_v6)) := by
  simp only [opsC1, restB, restA, ops, List.take_succ_cons, List.take_zero, List.drop_succ_cons, List.drop_zero]
  after_results <;> (try simp only [TRef.ofBuf, TRef.toBuf, cast_cast_back]) <;> rfl

set_option maxHeartbeats 4000000 in
theorem C1_keep (U : Valuation τ sig (Elt F)) :
    after opsC1 U (Proc.devRef .tc main_v3) = U (Proc.devRef .tc main_v3)
    ∧ after opsC1 U (Proc.devRef .tc main_v6) = U (Proc.devRef .tc main_v6)
    ∧ after opsC1 U (Proc.devRef .tc main_v45) = U (Proc.devRef .tc main_v45)
    ∧ after opsC1 U (Proc.devRef .tc main_arg5) = U (Proc.devRef .tc main_arg5)
    ∧ after opsC1 U (Proc.devRef .tc main_arg6) = U (Proc.devRef .tc main_arg6)
    ∧ after opsC1 U (Proc.devRef .tc main_arg7) = U (Proc.devRef .tc main_arg7) := by
  simp only [opsC1, restB, restA, ops, List.take_succ_cons, List.take_zero, List.drop_succ_cons, List.drop_zero]
  refine ⟨?_, ?_, ?_, ?_, ?_, ?_⟩ <;> after_results <;> (try simp only [TRef.ofBuf, TRef.toBuf, cast_cast_back]) <;> rfl

/-! ## The fourth piece: the second layer's aggregation, bias and clip; the output product and its bias -/

set_option maxHeartbeats 4000000 in
theorem C2_z (U : Valuation τ sig (Elt F)) : after opsC2 U (Proc.devRef .tc main_v81)
    = addBiasRaw (Host.dotGeneral dot_S100000x256_S256x64_S100000x64_1_0_0_1_n_n none
        (biasReluRaw (aggregate (U (Proc.devRef .tc main_v3)) (U (Proc.devRef .tc main_v6)) (U (Proc.devRef .tc main_v60)) (U (Proc.devRef .tc main_v45)))
          (U (Proc.devRef .tc main_arg5)))
        (U (Proc.devRef .tc main_arg6))) (U (Proc.devRef .tc main_arg7)) := by
  simp only [opsC2, restC1, restB, restA, ops, List.take_succ_cons, List.take_zero, List.drop_succ_cons, List.drop_zero]
  after_results <;> (try simp only [TRef.ofBuf, TRef.toBuf, cast_cast_back]) <;> rfl

/-! ## The last piece: the logarithm of the softmax -/

set_option maxHeartbeats 4000000 in
theorem D_out (U : Valuation τ sig (Elt F)) :
    after opsD U (Proc.devRef .tc main_v82) = logSoftmaxRaw (U (Proc.devRef .tc main_v81)) := by
  simp only [opsD, restC1, restB, restA, ops, List.take_succ_cons, List.take_zero, List.drop_succ_cons, List.drop_zero]
  after_results <;> (try simp only [TRef.ofBuf, TRef.toBuf, cast_cast_back]) <;> rfl

end Chunks

end Cert.ReferenceIdeal.Net

end
-- ==== Proof.RefValue.lean ====
/-
  The reference's run read as the network: its result buffer ends at `net` of the eight arguments, and the arguments
  end as launched. The five pieces of the operation list are chained through their boundary values; the dense stages as
  jnp spells them are then the specification's functions.
-/
import proofs.«146392_j10118942949882_1_alg».proof.Proof.RefThread

set_option maxRecDepth 16384

noncomputable section

open Idealize.ShloMosaic Idealize.ShloMosaic.TcCoe Idealize.SL.Sem Idealize.ShloMosaic.StableHlo

namespace Cert.ReferenceIdeal.Net

open Cert.ReferenceIdeal Cert.ReferenceIdeal.Gen Cert.ReferenceIdeal.ValueP Cert.ReferenceIdeal.Dense Cert.Gcn

/-- jnp's bias-and-relu is the specification's. -/
theorem biasReluRaw_eq (a : FArr Ideal S100000x256) (b : FArr Ideal S256) : biasReluRaw a b = biasRelu a (rowOf256 b) :=
  biasRelu_eq a b

/-- jnp's output bias is the specification's. -/
theorem addBiasRaw_eq (y : FArr Ideal S100000x64) (b : FArr Ideal S64) : addBiasRaw y b = addRowBias y (rowOf64 b) :=
  addRowBias_eq y b

/-- jax's log_softmax is the specification's. -/
theorem logSoftmaxRaw_eq (z : FArr Ideal S100000x64) : logSoftmaxRaw z = logSoftmaxRows z :=
  logSoftmax_eq z

/-- After all 117 operations the result buffer holds the network's value at the contents the arguments had. -/
theorem ref_out (U : Valuation τ sig (Elt Ideal)) :
    after (ops (F := Ideal)) U (Proc.devRef .tc main_v82)
      = net (U (Proc.devRef .tc main_arg0)) (U (Proc.devRef .tc main_arg1)) (U (Proc.devRef .tc main_arg2)) (U (Proc.devRef .tc main_arg3))
          (U (Proc.devRef .tc main_arg4)) (U (Proc.devRef .tc main_arg5)) (U (Proc.devRef .tc main_arg6)) (U (Proc.devRef .tc main_arg7)) := by
  rw [after_ops, D_out, C2_z]
  obtain ⟨c3, c6, c45, c5, c6', c7⟩ := C1_keep (after opsB (after opsA U))
  rw [C1_nrm, c3, c6, c45, c5, c6', c7]
  obtain ⟨b3, b6, b11, b5, b6', b7⟩ := B_keep (after opsA U)
  rw [B_h, b3, b6, b11, b5, b6', b7]
  obtain ⟨a3, a4, a5, a6, a7⟩ := A_keep U
  rw [A_src, A_dst, A_dis, A_nrm, A_h, a3, a4, a5, a6, a7]
  rw [logSoftmaxRaw_eq, addBiasRaw_eq, dot64_eq, biasReluRaw_eq, dot256_eq, biasReluRaw_eq, dot256_eq]
  rfl

variable (m : (ℓ : Loc nD τ sig) → Buf (Elt Ideal) ℓ) (ρ : Dev nD → PrngReg)

set_option maxRecDepth 65536 in
set_option maxHeartbeats 40000000 in
/-- No operation writes an argument: after all of them each argument buffer holds what it was launched with. -/
theorem ref_args (c : Dev nD) :
    after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3)
    ∧ after (ops (F := Ideal)) (launchContents m c) (Proc.devRef .tc main_arg4) = m ((c.tc : Thread nD τ).loc main_arg4)
    ∧ after (ops (F := Ideal)) (launchContents m c) (Proc.devRef .tc main_arg5) = m ((c.tc : Thread nD τ).loc main_arg5)
    ∧ after (ops (F := Ideal)) (launchContents m c) (Proc.devRef .tc main_arg6) = m ((c.tc : Thread nD τ).loc main_arg6)
    ∧ after (ops (F := Ideal)) (launchContents m c) (Proc.devRef .tc main_arg7) = m ((c.tc : Thread nD τ).loc main_arg7) :=
  ⟨by after_results_simp <;> rfl, by after_results_simp <;> rfl, by after_results_simp <;> rfl, by after_results_simp <;> rfl, by after_results_simp <;> rfl, by after_results_simp <;> rfl, by after_results_simp <;> rfl, by after_results_simp <;> rfl⟩

/-- The reference's run: every weakly fair execution terminates, the result buffer at the network's value of the
    launched arguments, the arguments unchanged. -/
theorem run_net : θ_run defs (onTc (τ := τ) (main (F := Ideal))) ⟨m, fun _ => 0, ρ⟩ fun r => ∀ c : Dev nD,
      r.2.mem ((c.tc : Thread nD τ).loc main_v82)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      ⟨(h c main_v82).trans (ref_out (launchContents m c)),
       (h c main_arg0).trans (ref_args m c).1,
       (h c main_arg1).trans (ref_args m c).2.1,
       (h c main_arg2).trans (ref_args m c).2.2.1,
       (h c main_arg3).trans (ref_args m c).2.2.2.1,
       (h c main_arg4).trans (ref_args m c).2.2.2.2.1,
       (h c main_arg5).trans (ref_args m c).2.2.2.2.2.1,
       (h c main_arg6).trans (ref_args m c).2.2.2.2.2.2.1,
       (h c main_arg7).trans (ref_args m c).2.2.2.2.2.2.2⟩)
    (run_fold m ρ)

end Cert.ReferenceIdeal.Net

end
-- ==== Proof.NetEq.lean ====
/-
  The kernel program and the reference print the same host operations, each under its own names; the functions read
  off the two programs (the edges' ends, their weights, the aggregation, a layer, the whole network) are the same
  functions.
-/
import proofs.«146392_j10118942949882_1_alg».proof.Proof.Graph
import proofs.«146392_j10118942949882_1_alg».proof.Proof.RefGraph

noncomputable section

open Idealize.ShloMosaic Idealize.ShloMosaic.TcCoe Idealize.SL.Sem

namespace Cert.NetEq

variable {F : FTy → Type} [FloatOps F]

theorem srcIdx_eq (ei : Cert.KernelIdeal.Net.IArr F Cert.KernelIdeal.S2x800000) :
    Cert.ReferenceIdeal.Net.srcIdx ei = Cert.KernelIdeal.Net.srcIdx ei := rfl

theorem dstIdx_eq (ei : Cert.KernelIdeal.Net.IArr F Cert.KernelIdeal.S2x800000) :
    Cert.ReferenceIdeal.Net.dstIdx ei = Cert.KernelIdeal.Net.dstIdx ei := rfl

theorem wrapCol_eq (v : Cert.KernelIdeal.Net.IArr F Cert.KernelIdeal.S900000) :
    Cert.ReferenceIdeal.Net.wrapCol v = Cert.KernelIdeal.Net.wrapCol v := rfl

theorem degInvSqrt_eq (dst : Cert.KernelIdeal.Net.IArr F Cert.KernelIdeal.S900000) :
    Cert.ReferenceIdeal.Net.degInvSqrt dst = Cert.KernelIdeal.Net.degInvSqrt dst := rfl

theorem edgeNormOf_eq (dis : Cert.KernelIdeal.Net.FArr F Cert.KernelIdeal.S100000) (src dst : Cert.KernelIdeal.Net.IArr F Cert.KernelIdeal.S900000) :
    Cert.ReferenceIdeal.Net.edgeNormOf dis src dst = Cert.KernelIdeal.Net.edgeNormOf dis src dst := by
  unfold Cert.ReferenceIdeal.Net.edgeNormOf Cert.KernelIdeal.Net.edgeNormOf
  rw [wrapCol_eq, wrapCol_eq]
  rfl

theorem edgeNorm_eq (src dst : Cert.KernelIdeal.Net.IArr F Cert.KernelIdeal.S900000) :
    Cert.ReferenceIdeal.Net.edgeNorm src dst = Cert.KernelIdeal.Net.edgeNorm src dst := by
  unfold Cert.ReferenceIdeal.Net.edgeNorm Cert.KernelIdeal.Net.edgeNorm
  rw [degInvSqrt_eq, edgeNormOf_eq]

theorem aggregate_eq (src dst : Cert.KernelIdeal.Net.IArr F Cert.KernelIdeal.S900000) (nrm : Cert.KernelIdeal.Net.FArr F Cert.KernelIdeal.S900000)
    (h : Cert.KernelIdeal.Net.FArr F Cert.KernelIdeal.S100000x256) :
    Cert.ReferenceIdeal.Net.aggregate src dst nrm h = Cert.KernelIdeal.Net.aggregate src dst nrm h := by
  unfold Cert.ReferenceIdeal.Net.aggregate Cert.KernelIdeal.Net.aggregate
  rw [wrapCol_eq]
  rfl

theorem layer_eq (ei : Cert.KernelIdeal.Net.IArr Ideal Cert.KernelIdeal.S2x800000) (x : Cert.KernelIdeal.Net.FArr Ideal Cert.KernelIdeal.S100000x256)
    (w : Cert.KernelIdeal.Net.FArr Ideal Cert.KernelIdeal.S256x256) (b : Cert.KernelIdeal.Net.FArr Ideal Cert.KernelIdeal.S256) :
    Cert.ReferenceIdeal.Net.layer ei x w b = Cert.KernelIdeal.Net.layer ei x w b := by
  unfold Cert.ReferenceIdeal.Net.layer Cert.KernelIdeal.Net.layer
  rw [srcIdx_eq, dstIdx_eq, edgeNorm_eq, aggregate_eq]

/-- The network read off the reference is the network read off the kernel program. -/
theorem net_eq (x : Cert.KernelIdeal.Net.FArr Ideal Cert.KernelIdeal.S100000x256) (ei : Cert.KernelIdeal.Net.IArr Ideal Cert.KernelIdeal.S2x800000)
    (w1 : Cert.KernelIdeal.Net.FArr Ideal Cert.KernelIdeal.S256x256) (b1 : Cert.KernelIdeal.Net.FArr Ideal Cert.KernelIdeal.S256)
    (w2 : Cert.KernelIdeal.Net.FArr Ideal Cert.KernelIdeal.S256x256) (b2 : Cert.KernelIdeal.Net.FArr Ideal Cert.KernelIdeal.S256)
    (wo : Cert.KernelIdeal.Net.FArr Ideal Cert.KernelIdeal.S256x64) (bo : Cert.KernelIdeal.Net.FArr Ideal Cert.KernelIdeal.S64) :
    Cert.ReferenceIdeal.Net.net x ei w1 b1 w2 b2 wo bo = Cert.KernelIdeal.Net.net x ei w1 b1 w2 b2 wo bo := by
  unfold Cert.ReferenceIdeal.Net.net Cert.KernelIdeal.Net.net
  rw [layer_eq, layer_eq]

end Cert.NetEq

end
-- ==== Proof.lean ====
/-
  Two graph-convolution layers, an output product and a row-wise log-softmax: the tiled kernels against jnp.
  The kernel program runs five tiled TensorCore kernels (two weight products, two "add the bias and clip at zero",
  one "output product, bias, log-softmax") among host operations that gather, scale and scatter-add feature rows along
  the 900000 edges; the reference does every dense stage with jnp. Over the extended reals each tiled kernel writes,
  block of 4000 rows by block, exactly the whole-array function its jnp counterpart computes (a bf16 cast is the
  identity, a matrix-unit product into a zero accumulator is the plain sum over the 256 columns, jax's log_softmax
  takes the same row maximum from -∞), and the edge-side host operations are the same in both programs. So both
  result arrays hold one function, `net`, of the eight arguments; no finiteness of the inputs is used.
-/
import proofs.«146392_j10118942949882_1_alg».proof.Defs
import proofs.«146392_j10118942949882_1_alg».proof.Proof.Gen.Kernel
import proofs.«146392_j10118942949882_1_alg».proof.Proof.Gen.Kernel.Skeleton
import proofs.«146392_j10118942949882_1_alg».proof.Proof.Gen.Kernel.Launch
import proofs.«146392_j10118942949882_1_alg».proof.Proof.Gen.Kernel.Points
import proofs.«146392_j10118942949882_1_alg».proof.Proof.Gen.Kernel.Frame
import proofs.«146392_j10118942949882_1_alg».proof.Proof.Gen.KernelIdeal
import proofs.«146392_j10118942949882_1_alg».proof.Proof.Gen.KernelIdeal.Skeleton
import proofs.«146392_j10118942949882_1_alg».proof.Proof.Gen.KernelIdeal.Launch
import proofs.«146392_j10118942949882_1_alg».proof.Proof.Gen.KernelIdeal.Points
import proofs.«146392_j10118942949882_1_alg».proof.Proof.Gen.KernelIdeal.Frame
import proofs.«146392_j10118942949882_1_alg».proof.Proof.Gen.ReferenceIdeal
import proofs.«146392_j10118942949882_1_alg».proof.Proof.Gen.Pre_finite_inputs
import proofs.«146392_j10118942949882_1_alg».proof.Proof.KernelRun
import proofs.«146392_j10118942949882_1_alg».proof.Proof.Thread
import proofs.«146392_j10118942949882_1_alg».proof.Proof.RefValue
import proofs.«146392_j10118942949882_1_alg».proof.Proof.NetEq
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Net.run_net m ρ)

/-- Both programs end with the network's value of their arguments, and the arguments agree. -/
theorem algebraic : Cert.algebraic_KernelIdeal_ReferenceIdeal := by
  intro m ρ m' ρ' _ hagree
  refine ⟨fun c => Cert.KernelIdeal.Net.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Net.w9_out m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Net.run_net m' ρ')
    obtain ⟨e0, e1, e2, e3, e4, e5, e6, e7⟩ := hagree c
    rw [e0, e1, e2, e3, e4, e5, e6, e7]
    exact Cert.NetEq.net_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
